-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S16777216 : Shape := ⟨1, ![16777216]⟩
abbrev S1024x4096 : Shape := ⟨2, ![1024, 4096]⟩
abbrev S4096x1024 : Shape := ⟨2, ![4096, 1024]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_arg1 : IVec S16777216 32) (main_v13 : IVec S_ 1) (main_v15 : IVec S16777216 1) (main_c_5 : IVec S_ 32) : IVec S_ 1 :=
  let main_v16 : IVec S16777216 32 := broadcastInDim S16777216 ![] bcast_S_S16777216 main_c_5
  let main_v17 : IVec S16777216 1 := cmpi .sle main_arg1 main_v16
  let main_v18 : IVec S16777216 1 := andi main_v15 main_v17
  let main_c_6 : IVec S_ 1 := constantI S_ 1 1#1
  let main_v19 : IVec S_ 1 := (fun x v => Host.reduce IntOp.andi x v reducesTo_S16777216_S_d0 h_S_) main_v18 main_c_6
  let main_v20 : IVec S_ 1 := andi main_v13 main_v19
  main_v20

def fn {F : FTy → Type} [FloatOps F] (main_arg0 : FVec F S16777216x1 .f32) (main_arg1 : IVec S16777216 32) (main_arg2 : FVec F S1024x4096 .f32) (main_arg3 : FVec F S4096x1024 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_c_4 : IVec S_ 32 := constantI S_ 32 0#32
  let main_v14 : IVec S16777216 32 := broadcastInDim S16777216 ![] bcast_S_S16777216 main_c_4
  let main_v15 : IVec S16777216 1 := cmpi .sge main_arg1 main_v14
  let main_c_5 : IVec S_ 32 := constantI S_ 32 1#32
  fn_part1 (F := F) main_arg1 main_v13 main_v15 main_c_5
-- ==== Kernel.lean ====
abbrev S16777216x1 : Shape := ⟨2, ![16777216, 1]⟩
abbrev S16777216 : Shape := ⟨1, ![16777216]⟩
abbrev S1024x4096 : Shape := ⟨2, ![1024, 4096]⟩
abbrev S4096x1024 : Shape := ⟨2, ![4096, 1024]⟩
abbrev S131072x128 : Shape := ⟨2, ![131072, 128]⟩
abbrev S16x128 : Shape := ⟨2, ![16, 128]⟩
abbrev S8192x128 : Shape := ⟨2, ![8192, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S32768x128 : Shape := ⟨2, ![32768, 128]⟩

abbrev nBuf : Space → Nat
  | .hbm => 26
  | .vmem => 14
  | .smem => 0
  | _ => 0

abbrev bufTy : (tb : Table) → Fin (tcTables nBuf tb) → BufTy
  | .hbm, ⟨0, _⟩ => ⟨S16777216x1, .f32⟩
  | .hbm, ⟨1, _⟩ => ⟨S16777216, .i32⟩
  | .hbm, ⟨2, _⟩ => ⟨S1024x4096, .f32⟩
  | .hbm, ⟨3, _⟩ => ⟨S4096x1024, .f32⟩
  | .hbm, ⟨4, _⟩ => ⟨S131072x128, .f32⟩
  | .hbm, ⟨5, _⟩ => ⟨S131072x128, .i32⟩
  | .hbm, ⟨6, _⟩ => ⟨S16x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32768x128, .f32⟩
  | .hbm, ⟨13, _⟩ => ⟨S32768x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8x128, .f32⟩
  | .local _ .vmem, ⟨5, _⟩ => ⟨S8x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16777216x1_S131072x128 : S16777216x1.ShapeCasts S131072x128
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  reducesTo_S16x128_S_d0_1 : S16x128.ReducesTo [0, 1] S_
  h_S_ : 0 < S_.numel
  shapeCasts_S1024x4096_S32768x128 : S1024x4096.ShapeCasts S32768x128
  shapeCasts_S4096x1024_S32768x128 : S4096x1024.ShapeCasts S32768x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S32768x128.size a
  hwx1_0 : ∀ i : grid1.Coords, EltTy.bits .f32 = 32 ∨ (Rect.block (s := S32768x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S32768x128.size a
  hwx1_1 : ∀ i : grid1.Coords, EltTy.bits .f32 = 32 ∨ (Rect.block (s := S32768x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S16x128.size a
  hwx1_2 : ∀ i : grid1.Coords, EltTy.bits .f32 = 32 ∨ (Rect.block (s := S16x128) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S16x128.size a
  hwx1_3 : ∀ i : grid1.Coords, EltTy.bits .f32 = 32 ∨ (Rect.block (s := S16x128) S8x128.size (cc1_transform_3 i) (hinb1_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S8x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16777216x1 : Shape := ⟨2, ![16777216, 1]⟩
abbrev S16777216 : Shape := ⟨1, ![16777216]⟩
abbrev S1024x4096 : Shape := ⟨2, ![1024, 4096]⟩
abbrev S4096x1024 : Shape := ⟨2, ![4096, 1024]⟩
abbrev S_ : Shape := ⟨0, ![]⟩
abbrev S16777216x2 : Shape := ⟨2, ![16777216, 2]⟩
abbrev S16777216x1x1 : Shape := ⟨3, ![16777216, 1, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216, .i32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S16777216x1, .f32⟩
  | .hbm, ⟨6, _⟩ => ⟨S16777216x1, .f32⟩
  | .hbm, ⟨7, _⟩ => ⟨S16777216x2, .f32⟩
  | .hbm, ⟨8, _⟩ => ⟨S_, .f32⟩
  | .hbm, ⟨9, _⟩ => ⟨S16777216x2, .f32⟩
  | .hbm, ⟨10, _⟩ => ⟨S16777216x2, .f32⟩
  | .hbm, ⟨11, _⟩ => ⟨S16777216x2, .f32⟩
  | .hbm, ⟨12, _⟩ => ⟨S16777216x1, .i32⟩
  | .hbm, ⟨13, _⟩ => ⟨S_, .i32⟩
  | .hbm, ⟨14, _⟩ => ⟨S16777216x1, .i32⟩
  | .hbm, ⟨15, _⟩ => ⟨S16777216x1, .i1⟩
  | .hbm, ⟨16, _⟩ => ⟨S_, .i32⟩
  | .hbm, ⟨17, _⟩ => ⟨S16777216x1, .i32⟩
  | .hbm, ⟨18, _⟩ => ⟨S16777216x1, .i32⟩
  | .hbm, ⟨19, _⟩ => ⟨S16777216x1, .i32⟩
  | .hbm, ⟨20, _⟩ => ⟨S16777216x1x1, .i32⟩
  | .hbm, ⟨21, _⟩ => ⟨S1, .i32⟩
  | .hbm, ⟨22, _⟩ => ⟨S_, .i32⟩
  | .hbm, ⟨23, _⟩ => ⟨S16777216x1x1, .i32⟩
  | .hbm, ⟨24, _⟩ => ⟨S16777216x1x1, .i1⟩
  | .hbm, ⟨25, _⟩ => ⟨S1x1x1, .i32⟩
  | .hbm, ⟨26, _⟩ => ⟨S16777216x1x1, .i32⟩
  | .hbm, ⟨27, _⟩ => ⟨S16777216x1x1, .i1⟩
  | .hbm, ⟨28, _⟩ => ⟨S16777216x1x1, .i1⟩
  | .hbm, ⟨29, _⟩ => ⟨S_, .i1⟩
  | .hbm, ⟨30, _⟩ => ⟨S16777216x1, .i1⟩
  | .hbm, ⟨31, _⟩ => ⟨S16777216x1, .f32⟩
  | .hbm, ⟨32, _⟩ => ⟨S_, .f32⟩
  | .hbm, ⟨33, _⟩ => ⟨S16777216x1, .f32⟩
  | .hbm, ⟨34, _⟩ => ⟨S16777216x1, .f32⟩
  | .hbm, ⟨35, _⟩ => ⟨S16777216, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1024x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_4 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_v19 : Ref sig .tc := ⟨.hbm, 51, rfl⟩
abbrev main_v20 : Ref sig .tc := ⟨.hbm, 52, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)
  concatenates_S16777216x1_S16777216x1_S16777216x2_d1 : Shape.Concatenates [S16777216x1, S16777216x1] S16777216x2 1
  bcast_S_S16777216x2 : S_.BroadcastsInDim S16777216x2 (![] : Fin 0 → Fin S16777216x2.rank)
  bcast_S16777216_S16777216x1_0 : S16777216.BroadcastsInDim S16777216x1 (![0] : Fin 1 → Fin S16777216x1.rank)
  shapeCasts_S16777216x1_S16777216x1x1 : S16777216x1.ShapeCasts S16777216x1x1
  bcast_S_S16777216x1x1 : S_.BroadcastsInDim S16777216x1x1 (![] : Fin 0 → Fin S16777216x1x1.rank)
  bcast_S1_S1x1x1_2 : S1.BroadcastsInDim S1x1x1 (![2] : Fin 1 → Fin S1x1x1.rank)
  bcast_S1x1x1_S16777216x1x1_0_1_2 : S1x1x1.BroadcastsInDim S16777216x1x1 (![0, 1, 2] : Fin 3 → Fin S16777216x1x1.rank)
  reducesTo_S16777216x1x1_S16777216x1_d2 : S16777216x1x1.ReducesTo [2] S16777216x1
  h_S_ : 0 < S_.numel
  shapeCasts_S16777216x1_S16777216 : S16777216x1.ShapeCasts S16777216
  reducesTo_S16777216_S_d0 : S16777216.ReducesTo [0] S_
  reducesTo_S1024x4096_S_d0_1 : S1024x4096.ReducesTo [0, 1] S_
  reducesTo_S4096x1024_S_d0_1 : S4096x1024.ReducesTo [0, 1] S_
  gather_S16777216x2_S16777216x1x1_S16777216x1_n_1_0_0_1_2_11_wf : GatherDims.WF S16777216x2 S16777216x1x1 S16777216x1 [] [1] [0] [1] [0] 2 ![1, 1]

variable [Facts₀]

def gather_S16777216x2_S16777216x1x1_S16777216x1_n_1_0_0_1_2_11 : GatherDims S16777216x2 S16777216x1x1 S16777216x1 where
  offsetDims := []
  collapsedSliceDims := [1]
  operandBatchingDims := [0]
  startIndicesBatchingDims := [0]
  startIndexMap := [1]
  indexVectorDim := 2
  sliceSizes := ![1, 1]
  wf := gather_S16777216x2_S16777216x1x1_S16777216x1_n_1_0_0_1_2_11_wf

class Facts : Prop extends Facts₀ where

variable [Facts]
-- ==== Proof.LossSpec.lean ====
/-
  The mathematics of the loss, with no program in sight.

  For a probability `p` and a label `b` the picked log-probability is `log (max (b = 0 ? 1 - p : p) ε)`; the loss is
  `-(∑ₙ picked n) / N + λ · (√(∑ W1²) + √(∑ W2²))` on the extended reals. Two programs compute the first sum in two
  arrangements: one adds all `N` terms at once; the other cuts the `N` samples, laid out as rows of 128, into blocks of
  8192 rows, adds each block's columns, folds the blocks of one half into a row of 128 running sums (restarting the
  fold at the first block of each half), and adds the rows at the end. Addition on the extended reals is commutative
  and associative, so the arrangements agree: the lemmas below say exactly that, over abstract summands.
-/
import Idealize.ShloMosaic.PureOps.Ideal
import Idealize.ShloMosaic.PureOps.Ideal.Laws
import Idealize.ShloMosaic.Lib.ValueIdx

noncomputable section

open scoped BigOperators

namespace Cert.LossSpec

open Idealize.ShloMosaic Idealize.ShloMosaic.ValueIdx

/-! ## One sample -/

/-- The float `1.0`. -/
abbrev one32 : EReal := Ideal.ofBits .f32 0x3F800000#32
/-- The clamp `1e-8` as the f32 both programs carry. -/
abbrev eps32 : EReal := Ideal.ofBits .f32 0x322BCC77#32
/-- The float `0.0`. -/
abbrev zero32 : EReal := Ideal.ofBits .f32 0x00000000#32

/-- The picked log-probability with the label first clipped to `[0, 1]` and the branch chosen before the logarithm. -/
def clipPick (p : EReal) (b : BitVec 32) : EReal :=
  Ideal.log (max (Scalar.select (IntOp.cmpi .eq (IntOp.minsi 1#32 (IntOp.maxsi 0#32 b)) 0#32) (one32 - p) p) eps32)

/-- The picked log-probability by cases on a label in `{0, 1}`: column `b` of `log (max [1 - p, p] ε)`. -/
def casePick (p : EReal) (b : BitVec 32) : EReal :=
  if b = 0#32 then Ideal.log (max (one32 - p) eps32) else Ideal.log (max p eps32)

theorem clipPick_zero (p : EReal) : clipPick p 0#32 = Ideal.log (max (one32 - p) eps32) := by
  unfold clipPick
  rw [show IntOp.cmpi .eq (IntOp.minsi 1#32 (IntOp.maxsi 0#32 (0#32 : BitVec 32))) 0#32 = 1#1 from by decide]
  rfl

theorem clipPick_one (p : EReal) : clipPick p 1#32 = Ideal.log (max p eps32) := by
  unfold clipPick
  rw [show IntOp.cmpi .eq (IntOp.minsi 1#32 (IntOp.maxsi 0#32 (1#32 : BitVec 32))) 0#32 = 0#1 from by decide]
  rfl

/-- On a label in `{0, 1}` clipping changes nothing and the two spellings pick the same number. -/
theorem clipPick_eq_casePick (p : EReal) (b : BitVec 32) (hb : b = 0#32 ∨ b = 1#32) : clipPick p b = casePick p b := by
  rcases hb with rfl | rfl
  · rw [clipPick_zero]; exact (if_pos rfl).symm
  · rw [clipPick_one]; exact (if_neg (by decide)).symm

/-! ## The divisor `N = 2²⁴` and the sign -/

theorem ofBits_two24 : Ideal.ofBits .f32 0x4B800000#32 = ((16777216 : ℝ) : EReal) := by
  simp [Ideal.ofBits, Ideal.ieee, -EReal.coe_mul]; norm_num

/-- Negating before or after dividing by `N` is the same on every extended real. -/
theorem div_neg_two24 (a : EReal) :
    Ideal.div (-a) (Ideal.ofBits .f32 0x4B800000#32) = -(Ideal.div a (Ideal.ofBits .f32 0x4B800000#32)) := by
  rw [ofBits_two24, Ideal.div_coe (by norm_num : (16777216 : ℝ) ≠ 0), Ideal.div_coe (by norm_num : (16777216 : ℝ) ≠ 0),
    EReal.neg_mul]

/-! ## The loss as one function of the four arrays -/

/-- The regulariser's weight `0.002` as the f32 both programs carry. -/
abbrev lam32 : EReal := Ideal.ofBits .f32 0x3B03126F#32
/-- The number of samples `2²⁴` as an f32. -/
abbrev two24 : EReal := Ideal.ofBits .f32 0x4B800000#32

/-- The sum over the samples of a per-sample pick of (probability, label). -/
def sampleSum (pick : EReal → BitVec 32 → EReal) (x0 : (⟨2, ![16777216, 1]⟩ : Shape).Idx → EReal)
    (x1 : (⟨1, ![16777216]⟩ : Shape).Idx → BitVec 32) : EReal :=
  ∑ n : (⟨1, ![16777216]⟩ : Shape).Idx, pick (x0 (ix2 (n 0) 0)) (x1 n)

/-- The sum of the squares of an array's entries. -/
def sqSum {s : Shape} (x : s.Idx → EReal) : EReal := ∑ j, x j * x j

/-- The loss with the mean taken first and negated after: `-(Σ / N) + λ (√Σ₁ + √Σ₂)`, the picks by cases on the label. -/
def meanThenNeg (x0 : (⟨2, ![16777216, 1]⟩ : Shape).Idx → EReal) (x1 : (⟨1, ![16777216]⟩ : Shape).Idx → BitVec 32)
    (x2 : (⟨2, ![1024, 4096]⟩ : Shape).Idx → EReal) (x3 : (⟨2, ![4096, 1024]⟩ : Shape).Idx → EReal) : EReal :=
  -(Ideal.div (zero32 + sampleSum casePick x0 x1) two24)
    + lam32 * (Ideal.sqrt (zero32 + sqSum x2) + Ideal.sqrt (zero32 + sqSum x3))

/-- The loss with the sum negated first and divided after: `(-Σ) / N + λ (√Σ₁ + √Σ₂)`, the picks with the label clipped. -/
def negThenMean (x0 : (⟨2, ![16777216, 1]⟩ : Shape).Idx → EReal) (x1 : (⟨1, ![16777216]⟩ : Shape).Idx → BitVec 32)
    (x2 : (⟨2, ![1024, 4096]⟩ : Shape).Idx → EReal) (x3 : (⟨2, ![4096, 1024]⟩ : Shape).Idx → EReal) : EReal :=
  Ideal.div (-(zero32 + sampleSum clipPick x0 x1)) two24
    + lam32 * (Ideal.sqrt (zero32 + sqSum x2) + Ideal.sqrt (zero32 + sqSum x3))

/-- With every label in `{0, 1}` the two arrangements are one number. -/
theorem negThenMean_eq_meanThenNeg (x0 : (⟨2, ![16777216, 1]⟩ : Shape).Idx → EReal) (x1 : (⟨1, ![16777216]⟩ : Shape).Idx → BitVec 32)
    (x2 : (⟨2, ![1024, 4096]⟩ : Shape).Idx → EReal) (x3 : (⟨2, ![4096, 1024]⟩ : Shape).Idx → EReal)
    (hl : ∀ n, x1 n = 0#32 ∨ x1 n = 1#32) : negThenMean x0 x1 x2 x3 = meanThenNeg x0 x1 x2 x3 := by
  unfold negThenMean meanThenNeg
  rw [div_neg_two24]
  have e : sampleSum clipPick x0 x1 = sampleSum casePick x0 x1 :=
    Finset.sum_congr rfl fun n _ => clipPick_eq_casePick _ _ (hl n)
  rw [e]

/-! ## A sum over a reshaped array -/

/-- A reshape keeps the elements, so a sum over the reshaped array is the sum over the array. -/
theorem sum_shapeCast {s t : Shape} {α : Type} (x : s.Idx → α) (h : s.ShapeCasts t) (f : α → EReal) :
    ∑ j : t.Idx, f (shapeCast t x h j) = ∑ k : s.Idx, f (x k) :=
  Equiv.sum_comp (Shape.reshapeEquiv h) (fun k => f (x k))

/-- The samples laid out as 131072 rows of 128 lanes: the probabilities (a column) and the labels (a vector) are both
    reshaped to that layout, entry `k` of each being the same sample, so the sum over the layout is the sum over the
    samples. -/
theorem sampleSum_reshaped (pick : EReal → BitVec 32 → EReal) (x0 : (⟨2, ![16777216, 1]⟩ : Shape).Idx → EReal)
    (x1 : (⟨1, ![16777216]⟩ : Shape).Idx → BitVec 32)
    (h0 : Shape.ShapeCasts ⟨2, ![16777216, 1]⟩ ⟨2, ![131072, 128]⟩) (h1 : Shape.ShapeCasts ⟨1, ![16777216]⟩ ⟨2, ![131072, 128]⟩) :
    ∑ k : (⟨2, ![131072, 128]⟩ : Shape).Idx, pick (shapeCast ⟨2, ![131072, 128]⟩ x0 h0 k) (shapeCast ⟨2, ![131072, 128]⟩ x1 h1 k)
      = sampleSum pick x0 x1 := by
  unfold sampleSum
  rw [← Equiv.sum_comp (Shape.reshapeEquiv h1) (fun n : (⟨1, ![16777216]⟩ : Shape).Idx => pick (x0 (ix2 (n 0) 0)) (x1 n))]
  refine Finset.sum_congr rfl fun k _ => ?_
  unfold shapeCast
  refine congrArg (fun j => pick (x0 j) (x1 (Shape.reshapeEquiv h1 k))) ?_
  refine Shape.reshapeEquiv_eq_of_rowMajor h0 ?_
  rw [Shape.rowMajor_val_two, ← Shape.rowMajor_reshapeEquiv h1 k, Shape.rowMajor_val_one]
  show ((Shape.reshapeEquiv h1 k) 0).val * 1 + 0 = _
  omega

/-! ## Blocks of 8192 rows -/

/-- Row `r` of block `t` in an array of `T` blocks of 8192 rows. -/
def blockRow {T N : ℕ} (hN : T * 8192 = N) (t : Fin T) (r : Fin 8192) : Fin N :=
  ⟨t.val * 8192 + r.val, by have := t.isLt; have := r.isLt; omega⟩

/-- The column sums of block `t`: one number per lane. -/
def blockColSum {T N : ℕ} (hN : T * 8192 = N) (g : (⟨2, ![N, 128]⟩ : Shape).Idx → EReal) (t : Fin T) (q : Fin 128) : EReal :=
  ∑ r : Fin 8192, g (ix2 (blockRow hN t r) q)

/-- Every row lies in exactly one block: the blocks' column sums add up to the whole array's sum. -/
theorem sum_blockColSum {T N : ℕ} (hN : T * 8192 = N) (g : (⟨2, ![N, 128]⟩ : Shape).Idx → EReal) :
    ∑ q : Fin 128, ∑ t : Fin T, blockColSum hN g t q = ∑ k, g k := by
  subst hN
  rw [sum_idx2]
  conv_rhs => rw [Finset.sum_comm]
  apply Finset.sum_congr rfl
  intro q _
  unfold blockColSum
  rw [← Fintype.sum_prod_type' (f := fun (t : Fin T) (r : Fin 8192) => g (ix2 (blockRow rfl t r) q)),
    ← Equiv.sum_comp finProdFinEquiv (fun R : Fin (T * 8192) => g (ix2 R q))]
  refine Fintype.sum_congr _ _ fun tr => ?_
  refine congrArg (fun R => g (ix2 R q)) (Fin.ext ?_)
  show tr.1.val * 8192 + tr.2.val = tr.2.val + 8192 * tr.1.val
  omega

/-! ## The running row -/

/-- The running sums after block `n` when the fold restarts at every `P`-th block: `0 + part` at a restart (the row is
    zeroed and the block's sums added to it), else the row before plus the block's sums. -/
def running (P : ℕ) (part : ℕ → Fin 128 → EReal) : ℕ → Fin 128 → EReal
  | 0 => fun q => zero32 + part 0 q
  | n + 1 => if (n + 1) % P = 0 then fun q => zero32 + part (n + 1) q else fun q => running P part n q + part (n + 1) q

theorem running_restart (P : ℕ) (part : ℕ → Fin 128 → EReal) (n : ℕ) (h : n % P = 0) :
    running P part n = fun q => zero32 + part n q := by
  cases n with
  | zero => rfl
  | succ n => exact if_pos h

theorem running_step (P : ℕ) (part : ℕ → Fin 128 → EReal) (n : ℕ) (h : ¬n % P = 0) :
    running P part n = fun q => running P part (n - 1) q + part n q := by
  cases n with
  | zero => exact absurd (Nat.zero_mod _) h
  | succ n => exact if_neg h

theorem zero32_eq : zero32 = 0 := Ideal.ofBits_zero_f32

/-- Sixteen blocks in two halves of eight: the two rows left at the ends of the halves add up to all sixteen blocks. -/
theorem running8_total (part : ℕ → Fin 128 → EReal) (q : Fin 128) :
    running 8 part 7 q + running 8 part 15 q = ∑ t : Fin 16, part t.val q := by
  rw [Fin.sum_univ_eq_sum_range (fun n => part n q) 16]
  simp only [Finset.sum_range_succ, Finset.sum_range_zero, running, zero32_eq, zero_add]
  norm_num
  abel

/-- Four blocks in two halves of two. -/
theorem running2_total (part : ℕ → Fin 128 → EReal) (q : Fin 128) :
    running 2 part 1 q + running 2 part 3 q = ∑ t : Fin 4, part t.val q := by
  rw [Fin.sum_univ_eq_sum_range (fun n => part n q) 4]
  simp only [Finset.sum_range_succ, Finset.sum_range_zero, running, zero32_eq, zero_add]
  norm_num
  abel

/-! ## The 16 × 128 array of partial sums and its total -/

/-- An array of 16 rows whose row 0 is `a`, whose row 8 is `b` and whose other rows are zero sums to `∑ (a + b)`. -/
theorem sum_two_rows (A : (⟨2, ![16, 128]⟩ : Shape).Idx → EReal) (a b : Fin 128 → EReal)
    (hA : ∀ (i : Fin 16) (q : Fin 128), A (ix2 i q) = if i.val = 0 then a q else if i.val = 8 then b q else 0) :
    ∑ j, A j = ∑ q : Fin 128, (a q + b q) := by
  rw [sum_idx2, Finset.sum_comm]
  apply Finset.sum_congr rfl
  intro q _
  simp only [hA]
  rw [Fin.sum_univ_eq_sum_range (fun n => if n = 0 then a q else if n = 8 then b q else 0) 16]
  simp [Finset.sum_range_succ]

end Cert.LossSpec

end
-- ==== Proof.LogSums.lean ====
/-
  The first region: the log-probability sums.

  The 2²⁴ samples lie as 131072 rows of 128 lanes. Point `t` of the grid (sixteen points, `t = 8·h + i` for the half
  `h` and the step `i`) is handed rows `[8192·t, 8192·(t+1))` and adds, lane by lane, the picked log-probabilities of
  those rows to row 0 of an 8×128 block that it keeps from the point before; at the first step of a half the block is
  zeroed first. The block is written to rows `[8h, 8h+8)` of a 16×128 array after the last step of the half. So the
  array ends with the running row of each half in rows 0 and 8 and zeros elsewhere, and its entries add up to the sum
  of the picked log-probabilities of all samples.
-/
import proofs.«401046_j82171314307686_3_alg».proof.Proof.Gen.KernelIdeal.Frame
import proofs.«401046_j82171314307686_3_alg».proof.Proof.LossSpec
import Idealize.ShloMosaic.Lib.Pipeline.Value
import Idealize.ShloMosaic.Lib.WritesUnit
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.LogSums

open Cert.KernelIdeal Cert.KernelIdeal.Gen Cert.LossSpec

theorem hz : (![0, 0] : Fin 2 → Nat) = fun _ => 0 := funext fun a => by fin_cases a <;> rfl

/-! ## One block's contribution to a lane -/

/-- Entry `(k, q)` of a block is where the lane sum's `k`-th term is read. -/
theorem lift_rows (q : Fin 128) (k : Fin 8192) :
    (reduces_S8192x128_S128.lift (ix1 q) k : S8192x128.Idx) = ix2 k q := by
  funext a
  match a with
  | ⟨0, _⟩ => rfl
  | ⟨1, _⟩ => rfl

/-- The stored row: lane `q` of what was there plus the block's column sum of picked log-probabilities. -/
theorem update_apply (x0 : Vec Ideal S8192x128 .f32) (x1 : Vec Ideal S8192x128 .i32) (v : Vec Ideal S1x128 .f32) (q : Fin 128) :
    k0_pay2 (F := Ideal) x0 x1 v (ix2 0 q) = v (ix2 0 q) + ∑ r : Fin 8192, clipPick (x0 (ix2 r q)) (x1 (ix2 r q)) := by
  unfold k0_pay2
  dsimp only
  refine (ValueIdx.addf_apply _ _ _).trans ?_
  refine congrArg₂ (· + ·) (congrFun (shapeCast_self _ _) _) ?_
  refine (shapeCast_apply _ shapeCasts_S128_S1x128 (ix2 0 q) (ix1 q) ?_).trans ?_
  · rw [Shape.rowMajor_val_one, Shape.rowMajor_val_two]
    show q.val = 0 * 128 + q.val
    omega
  refine (Ideal.multiReduction_add_single _ 0x00000000#32 reduces_S8192x128_S128 (.inl rfl) rfl (ix1 q)).trans ?_
  show ∑ k : Fin 8192, _ = _
  refine Finset.sum_congr rfl fun k _ => ?_
  rw [lift_rows]
  simp only [shapeCast_self]
  rfl

/-! ## Reading the block after a store of row 0 and after a store of the whole block -/

section Reads

variable {κ : Kind} {sp : Space} (v : View sig κ sp S8x128 .f32) (f : v.ty.Contents (Elt Ideal))

/-- After a store of row 0, row 0 reads the stored row. -/
theorem read_row0 (w : S1x128.Idx → EReal) (L : List (View.Piece (Elt Ideal) S8x128 .f32)) (q : Fin 128) :
    v.read (Elt Ideal) (v.writes (Elt Ideal) f
      ((⟨Rect.unit (s := S8x128) ![0, 0] S1x128.size inb_S8x128_S1x128_0_0, w⟩ : View.Piece (Elt Ideal) S8x128 .f32) :: L))
        (ix2 (n0 := 8) (n1 := 128) 0 q) = w (ix2 (n0 := 1) (n1 := 128) 0 q) :=
  View.read_writes_cons_unit_of_mem (Val := Elt Ideal) v f inb_S8x128_S1x128_0_0 w L (ix2 (n0 := 8) (n1 := 128) 0 q)
    (ix2 (n0 := 1) (n1 := 128) 0 q) rfl (fun a => by
      match a with
      | ⟨0, _⟩ => rfl
      | ⟨1, _⟩ => exact (Nat.zero_add _).symm)

/-- After a store of row 0, the other rows read what was there before the store. -/
theorem read_below (w : S1x128.Idx → EReal) (L : List (View.Piece (Elt Ideal) S8x128 .f32)) (a : Fin 8) (ha : a.val ≠ 0) (q : Fin 128) :
    v.read (Elt Ideal) (v.writes (Elt Ideal) f
      ((⟨Rect.unit (s := S8x128) ![0, 0] S1x128.size inb_S8x128_S1x128_0_0, w⟩ : View.Piece (Elt Ideal) S8x128 .f32) :: L))
        (ix2 (n0 := 8) (n1 := 128) a q) = v.read (Elt Ideal) (v.writes (Elt Ideal) f L) (ix2 (n0 := 8) (n1 := 128) a q) :=
  View.read_writes_cons_unit_of_not_mem (Val := Elt Ideal) v f inb_S8x128_S1x128_0_0 w L (ix2 (n0 := 8) (n1 := 128) a q) rfl (0 : Fin 2)
    (Or.inr (by show 0 + 1 ≤ a.val; omega))

/-- After a store of the whole block (and nothing after it), every entry reads the stored block. -/
theorem read_whole (w : S8x128.Idx → EReal) (y : S8x128.Idx) :
    v.read (Elt Ideal) (v.writes (Elt Ideal) f
      [(⟨Rect.unit (s := S8x128) ![0, 0] S8x128.size inb_S8x128_S8x128_0_0, w⟩ : View.Piece (Elt Ideal) S8x128 .f32)]) y = w y :=
  View.read_writes_cons_unit_of_mem (Val := Elt Ideal) v f inb_S8x128_S8x128_0_0 w [] y y rfl (fun a => by
    match a with
    | ⟨0, _⟩ => exact (Nat.zero_add _).symm
    | ⟨1, _⟩ => exact (Nat.zero_add _).symm)

/-- A load of a whole 8192 × 128 staging buffer holding `x` reads `x`. -/
theorem load_whole {e : EltTy} (a : Memref sig .tc .vmem S8192x128 e) (h : a.IsWhole) (x : S8192x128.Idx → Elt Ideal e) :
    View.readAt (Elt Ideal) a.view (Rect.unit (s := S8192x128) ![0, 0] S8192x128.size inb_S8192x128_S8192x128_0_0).toLoadRect (h.unread x) = x := by
  rw [View.readAt_eq_ld, h.read_unread]
  exact View.ld_unit_zero (S := S8192x128) hz _ x

end Reads

/-! ## What each case leaves in the block -/

/-- The row-0 load's index `(0, q)` in the block. -/
theorem row0_idx (q : Fin 128) :
    ((Rect.unit (s := S8x128) ![0, 0] S1x128.size inb_S8x128_S1x128_0_0).toLoadRect.idx (ix2 0 q) : S8x128.Idx) = ix2 0 q := by
  funext a
  apply Fin.ext
  match a with
  | ⟨0, _⟩ => show 0 + 1 * 0 = 0; rfl
  | ⟨1, _⟩ => show 0 + 1 * q.val = q.val; omega

/-- A later step, row 0: the row kept from the point before plus this block's column sums. -/
theorem later_row0 (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : ¬cond0_0 i) (x0 : Vec Ideal S8192x128 .f32) (x1 : Vec Ideal S8192x128 .i32) (xo : Vec Ideal S8x128 .f32) (q : Fin 128) :
    out0_B_2 c i a2 h2 a3 h3 a4 h4 hc x0 x1 xo (ix2 0 q)
      = xo (ix2 0 q) + ∑ r : Fin 8192, clipPick (x0 (ix2 r q)) (x1 (ix2 r q)) := by
  unfold out0_B_2 kernelRun0_B
  dsimp only
  sl_unfold_words
  refine (read_row0 a4.view (h4.unread xo) _ [] q).trans ?_
  rw [load_whole a2 h2 x0, load_whole a3 h3 x1]
  refine (update_apply x0 x1 _ q).trans ?_
  refine congrArg₂ (· + ·) ?_ rfl
  show a4.view.read (Elt Ideal) (h4.unread xo) ((Rect.unit (s := S8x128) ![0, 0] S1x128.size inb_S8x128_S1x128_0_0).toLoadRect.idx (ix2 0 q)) = _
  rw [h4.read_unread, row0_idx]

/-- A later step, the other rows: untouched. -/
theorem later_rest (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : ¬cond0_0 i) (x0 : Vec Ideal S8192x128 .f32) (x1 : Vec Ideal S8192x128 .i32) (xo : Vec Ideal S8x128 .f32)
    (a : Fin 8) (ha : a.val ≠ 0) (q : Fin 128) :
    out0_B_2 c i a2 h2 a3 h3 a4 h4 hc x0 x1 xo (ix2 a q) = xo (ix2 a q) := by
  unfold out0_B_2 kernelRun0_B
  dsimp only
  sl_unfold_words
  refine (read_below a4.view (h4.unread xo) _ [] a ha q).trans ?_
  show a4.view.read (Elt Ideal) (h4.unread xo) (ix2 a q) = _
  rw [h4.read_unread]

/-- The first step of a half, row 0: zero plus this block's column sums. -/
theorem first_row0 (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : cond0_0 i) (x0 : Vec Ideal S8192x128 .f32) (x1 : Vec Ideal S8192x128 .i32) (q : Fin 128) :
    out0_A_2 c i a2 h2 a3 h3 a4 h4 hc x0 x1 (ix2 0 q)
      = zero32 + ∑ r : Fin 8192, clipPick (x0 (ix2 r q)) (x1 (ix2 r q)) := by
  unfold out0_A_2 kernelRun0_A
  dsimp only
  sl_unfold_words
  refine (read_row0 VO0_2 VO0_2.junk _ _ q).trans ?_
  rw [load_whole a2 h2 x0, load_whole a3 h3 x1]
  refine (update_apply x0 x1 _ q).trans ?_
  refine congrArg₂ (· + ·) ?_ rfl
  show a4.view.read (Elt Ideal) (a4.view.writes (Elt Ideal) a4.view.junk
      [(⟨Rect.unit (s := S8x128) ![0, 0] S8x128.size inb_S8x128_S8x128_0_0, k0_pay1 (F := Ideal)⟩ : View.Piece (Elt Ideal) S8x128 .f32)])
    ((Rect.unit (s := S8x128) ![0, 0] S1x128.size inb_S8x128_S1x128_0_0).toLoadRect.idx (ix2 0 q)) = _
  rw [row0_idx]
  exact read_whole a4.view a4.view.junk (k0_pay1 (F := Ideal)) (ix2 0 q)

/-- The first step of a half, the other rows: zero. -/
theorem first_rest (c : Dev nD) (i : grid0.Coords) (a2 : Memref sig .tc .vmem S8192x128 .f32) (h2 : a2.IsWhole)
    (a3 : Memref sig .tc .vmem S8192x128 .i32) (h3 : a3.IsWhole) (a4 : Memref sig .tc .vmem S8x128 .f32) (h4 : a4.IsWhole)
    (hc : cond0_0 i) (x0 : Vec Ideal S8192x128 .f32) (x1 : Vec Ideal S8192x128 .i32) (a : Fin 8) (ha : a.val ≠ 0) (q : Fin 128) :
    out0_A_2 c i a2 h2 a3 h3 a4 h4 hc x0 x1 (ix2 a q) = zero32 := by
  unfold out0_A_2 kernelRun0_A
  dsimp only
  sl_unfold_words
  refine (read_below VO0_2 VO0_2.junk _ _ a ha q).trans ?_
  exact read_whole VO0_2 VO0_2.junk (k0_pay1 (F := Ideal)) (ix2 a q)

/-! ## The running row, point by point -/

section Points

variable (V : (c : Dev nD) → (b : Ref sig .tc) → Buf (Elt Ideal) ((c : Thread nD τ).loc b))

/-- The probabilities and the labels as the region finds them: 131072 rows of 128 lanes. -/
abbrev probs (c : Dev nD) : Vec Ideal S131072x128 .f32 := V c main_v0
abbrev labels (c : Dev nD) : Vec Ideal S131072x128 .i32 := V c main_v1
/-- Their blocks of 8192 rows at a grid point. -/
abbrev probBlk (c : Dev nD) (t : Fin cfg0.N) : Vec Ideal S8192x128 .f32 := iblk0 V c 0 t
abbrev labelBlk (c : Dev nD) (t : Fin cfg0.N) : Vec Ideal S8192x128 .i32 := iblk0 V c 1 t

/-- The picked log-probability of every sample, in the 131072 × 128 layout. -/
def picked (c : Dev nD) : S131072x128.Idx → EReal := fun k => clipPick (probs V c k) (labels V c k)

/-- Block `n`'s column sums of picked log-probabilities (zero past the sixteen blocks). -/
def part (c : Dev nD) : ℕ → Fin 128 → EReal := fun n q =>
  if h : n < 16 then blockColSum (T := 16) (N := 131072) rfl (picked V c) ⟨n, h⟩ q else 0

/-- Point `t` is handed block `t` of both inputs; the output block of point `t` is block `t / 8`. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)
theorem idx_out : ∀ t : Fin cfg0.N, win0_2.index t 0 = t.val / 8 ∧ win0_2.index t 1 = 0 :=
  (by decide +kernel : ∀ t : Fin grid0.N, win0_2.index t 0 = t.val / 8 ∧ win0_2.index t 1 = 0)

theorem lt16 (t : Fin cfg0.N) : t.val < 16 := lt_of_lt_of_eq t.isLt N_0

/-- Entry `(r, q)` of point `t`'s block of probabilities is entry `(8192·t + r, q)` of the array. -/
theorem probBlk_apply (c : Dev nD) (t : Fin cfg0.N) (r : Fin 8192) (q : Fin 128) :
    probBlk V c t (ix2 r q) = probs V c (ix2 (blockRow (T := 16) (N := 131072) rfl ⟨t.val, lt16 t⟩ r) q) := by
  show (((cfg0.win 0).blk t).view.read (Elt Ideal) (V c (Pipeline.arrRef spec0 0))) (ix2 r q) = _
  rw [View.read_apply]
  show V c main_v0 _ = V c main_v0 _
  refine congrArg (V c main_v0) (funext fun a => Fin.ext ?_)
  match a with
  | ⟨0, _⟩ => show win0_0.index t 0 * 8192 + 1 * r.val = t.val * 8192 + r.val; rw [(idx_in t).1]; omega
  | ⟨1, _⟩ => show win0_0.index t 1 * 128 + 1 * q.val = q.val; rw [(idx_in t).2.1]; omega

/-- The same for the labels. -/
theorem labelBlk_apply (c : Dev nD) (t : Fin cfg0.N) (r : Fin 8192) (q : Fin 128) :
    labelBlk V c t (ix2 r q) = labels V c (ix2 (blockRow (T := 16) (N := 131072) rfl ⟨t.val, lt16 t⟩ r) q) := by
  show (((cfg0.win 1).blk t).view.read (Elt Ideal) (V c (Pipeline.arrRef spec0 1))) (ix2 r q) = _
  rw [View.read_apply]
  show V c main_v1 _ = V c main_v1 _
  refine congrArg (V c main_v1) (funext fun a => Fin.ext ?_)
  match a with
  | ⟨0, _⟩ => show win0_1.index t 0 * 8192 + 1 * r.val = t.val * 8192 + r.val; rw [(idx_in t).2.2.1]; omega
  | ⟨1, _⟩ => show win0_1.index t 1 * 128 + 1 * q.val = q.val; rw [(idx_in t).2.2.2]; omega

/-- So what point `t` adds to lane `q` is block `t`'s column sum. -/
theorem blk_sum (c : Dev nD) (t : Fin cfg0.N) (q : Fin 128) :
    ∑ r : Fin 8192, clipPick (probBlk V c t (ix2 r q)) (labelBlk V c t (ix2 r q)) = part V c t.val q := by
  unfold part
  rw [dif_pos (lt16 t)]
  unfold blockColSum picked
  refine Finset.sum_congr rfl fun r _ => ?_
  rw [probBlk_apply, labelBlk_apply]

/-- After point `n` the kept block holds the running row in row 0 and zeros below it. -/
theorem row_inv (c : Dev nD) : ∀ (n : ℕ) (hn : n < cfg0.N) (a : Fin 8) (q : Fin 128),
    outsAt0 V c n hn (ix2 a q) = if a.val = 0 then running 8 (part V c) n q else zero32
  | 0, hn, a, q => by
    refine (congrFun (outsAt0_A V c ⟨0, hn⟩ (Nat.zero_mod 8)) (ix2 a q)).trans ?_
    by_cases ha : a.val = 0
    · obtain rfl : a = 0 := Fin.ext ha
      rw [if_pos ha]
      refine (first_row0 c _ _ _ _ _ _ _ _ (probBlk V c ⟨0, hn⟩) (labelBlk V c ⟨0, hn⟩) q).trans ?_
      rw [blk_sum V c ⟨0, hn⟩ q]
      rfl
    · rw [if_neg ha]
      exact first_rest c _ _ _ _ _ _ _ _ (probBlk V c ⟨0, hn⟩) (labelBlk V c ⟨0, hn⟩) a ha q
  | n + 1, hn, a, q => by
    by_cases h0 : (n + 1) % 8 = 0
    · refine (congrFun (outsAt0_A V c ⟨n + 1, hn⟩ h0) (ix2 a q)).trans ?_
      by_cases ha : a.val = 0
      · obtain rfl : a = 0 := Fin.ext ha
        rw [if_pos ha, running_restart 8 _ (n + 1) h0]
        refine (first_row0 c _ _ _ _ _ _ _ _ (probBlk V c ⟨n + 1, hn⟩) (labelBlk V c ⟨n + 1, hn⟩) q).trans ?_
        rw [blk_sum V c ⟨n + 1, hn⟩ q]
      · rw [if_neg ha]
        exact first_rest c _ _ _ _ _ _ _ _ (probBlk V c ⟨n + 1, hn⟩) (labelBlk V c ⟨n + 1, hn⟩) a ha q
    · refine (congrFun (outsAt0_B V c ⟨n + 1, hn⟩ h0) (ix2 a q)).trans ?_
      by_cases ha : a.val = 0
      · obtain rfl : a = 0 := Fin.ext ha
        rw [if_pos ha, running_step 8 _ (n + 1) h0]
        refine (later_row0 c _ _ _ _ _ _ _ _ (probBlk V c ⟨n + 1, hn⟩) (labelBlk V c ⟨n + 1, hn⟩) _ q).trans ?_
        rw [blk_sum V c ⟨n + 1, hn⟩ q]
        refine congrArg₂ (· + ·) ?_ rfl
        exact (row_inv c n (Nat.lt_of_succ_lt hn) 0 q).trans (if_pos ha)
      · rw [if_neg ha]
        refine (later_rest c _ _ _ _ _ _ _ _ (probBlk V c ⟨n + 1, hn⟩) (labelBlk V c ⟨n + 1, hn⟩) _ a ha q).trans ?_
        exact (row_inv c n (Nat.lt_of_succ_lt hn) a q).trans (if_neg ha)

/-! ## The 16 × 128 array of partial sums -/

/-- Row `i`, lane `q` of the array the region leaves: the running row of half `i / 8` after its last step in rows
    0 and 8, zero in the other rows. -/
def partialAt (c : Dev nD) (i : Fin 16) (q : Fin 128) : EReal :=
  if i.val % 8 = 0 then running 8 (part V c) (i.val + 7) q else zero32

def partials (c : Dev nD) : S16x128.Idx → EReal := fun j => partialAt V c (j 0) (j 1)

/-- Row `8·(t / 8) + a` of the array, for the last step `t` of a half, is row `a` of the block kept after `t`. -/
theorem partials_at (c : Dev nD) (j : S16x128.Idx) (a : Fin 8) (q : Fin 128) (t : ℕ)
    (h0 : (j 0).val = t / 8 * 8 + a.val) (h1 : (j 1).val = q.val) (h7 : t % 8 = 7) :
    partials V c j = if a.val = 0 then running 8 (part V c) t q else zero32 := by
  have ha := a.isLt
  unfold partials partialAt
  by_cases hz0 : a.val = 0
  · rw [if_pos hz0, if_pos (by omega)]
    have e1 : (j 0).val + 7 = t := by omega
    have e2 : (j 1 : Fin 128) = q := Fin.ext h1
    rw [e1, e2]
  · rw [if_neg hz0, if_neg (by omega)]

/-- What the last step of a half writes back is its block of that array. -/
theorem flushed_eq (c : Dev nD) (t : Fin cfg0.N) (hf : (cfg0.win 2).flush t = true) :
    (dat0 V c).flushed 2 t = ((cfg0.win 2).blk t).view.read (Elt Ideal) (partials V c) := by
  have h7 : t.val % 8 = 7 := (flush0_2 t).mp hf
  funext y
  obtain ⟨a, q, rfl⟩ : ∃ (a : Fin 8) (q : Fin 128), y = ix2 a q := ⟨y 0, y 1, eq_ix2 y⟩
  rw [View.read_apply]
  show (dat0 V c).after 2 t (ix2 a q) = partials V c (((cfg0.win 2).blk t).view.emb (ix2 a q))
  rw [after0_2, row_inv V c t.val t.isLt a q]
  refine (partials_at V c _ a q t.val ?_ ?_ h7).symm
  · show win0_2.index t 0 * 8 + 1 * a.val = t.val / 8 * 8 + a.val
    rw [(idx_out t).1]; omega
  · show win0_2.index t 1 * 128 + 1 * q.val = q.val
    rw [(idx_out t).2]; omega

/-- The two write-backs cover the array, so it ends as `partials`. -/
theorem final (c : Dev nD) : (dat0 V c).arrAt 2 cfg0.N = partials V c :=
  (dat0 V c).arrAt_eq_of_cover 2 (partials V c) (flushed_eq V c) fun i => by
    have hi0 : (i 0 : ℕ) < 16 := (i 0).isLt
    have hi1 : (i 1 : ℕ) < 128 := (i 1).isLt
    have ht : (i 0 : ℕ) / 8 * 8 + 7 < cfg0.N := by rw [show cfg0.N = 16 from N_0]; omega
    refine ⟨⟨(i 0 : ℕ) / 8 * 8 + 7, ht⟩, (flush0_2 _).mpr (by show ((i 0 : ℕ) / 8 * 8 + 7) % 8 = 7; omega), ?_⟩
    show i ∈ ((View.whole main_v2).slice (win0_2.rect ⟨(i 0 : ℕ) / 8 * 8 + 7, ht⟩)).set
    rw [View.set_slice_whole, Rect.mem_set_unit]
    intro a
    match a with
    | ⟨0, _⟩ =>
      show win0_2.index ⟨(i 0 : ℕ) / 8 * 8 + 7, ht⟩ 0 * 8 ≤ (i 0 : ℕ) ∧ (i 0 : ℕ) < win0_2.index ⟨(i 0 : ℕ) / 8 * 8 + 7, ht⟩ 0 * 8 + 8
      rw [(idx_out ⟨(i 0 : ℕ) / 8 * 8 + 7, ht⟩).1]
      show ((i 0 : ℕ) / 8 * 8 + 7) / 8 * 8 ≤ (i 0 : ℕ) ∧ (i 0 : ℕ) < ((i 0 : ℕ) / 8 * 8 + 7) / 8 * 8 + 8
      omega
    | ⟨1, _⟩ =>
      show win0_2.index ⟨(i 0 : ℕ) / 8 * 8 + 7, ht⟩ 1 * 128 ≤ (i 1 : ℕ) ∧ (i 1 : ℕ) < win0_2.index ⟨(i 0 : ℕ) / 8 * 8 + 7, ht⟩ 1 * 128 + 128
      rw [(idx_out ⟨(i 0 : ℕ) / 8 * 8 + 7, ht⟩).2]
      omega

/-- Its entries add up to the picked log-probabilities of all samples. -/
theorem total (c : Dev nD) : ∑ j, partials V c j = ∑ k, picked V c k := by
  rw [sum_two_rows (partials V c) (running 8 (part V c) 7) (running 8 (part V c) 15) (fun i q => by
    have hi := i.isLt
    show partialAt V c i q = _
    unfold partialAt
    by_cases h0 : i.val = 0
    · rw [if_pos h0, if_pos (by omega), h0]
    · rw [if_neg h0]
      by_cases h8 : i.val = 8
      · rw [if_pos h8, if_pos (by omega), h8]
      · rw [if_neg h8, if_neg (by omega)]; exact zero32_eq)]
  simp only [running8_total]
  rw [← sum_blockColSum (T := 16) (N := 131072) rfl (picked V c)]
  refine Finset.sum_congr rfl fun q _ => Finset.sum_congr rfl fun t _ => ?_
  unfold part
  rw [dif_pos t.isLt]

end Points

end Cert.KernelIdeal.LogSums

end
-- ==== Proof.SquareSums.lean ====
/-
  The second region: the sums of squares of the two weight arrays.

  Each weight array, reshaped to 32768 rows of 128 lanes, is cut into four blocks of 8192 rows. Point `t` of the grid
  (four points, `t = 2·h + i`) squares block `t` of both arrays, adds the columns, and adds each row of 128 sums to row 0
  of that array's own 8×128 block kept from the point before, zeroing both blocks first at the first step of a half.
  After the second step of half `h` the blocks go to rows `[8h, 8h+8)` of two 16×128 arrays. Each array ends with the
  running rows of the two halves in rows 0 and 8 and zeros elsewhere, and its entries add up to the sum of the squares
  of all entries of its weight array.
-/
import proofs.«401046_j82171314307686_3_alg».proof.Proof.LogSums

noncomputable section

open Idealize.ShloMosaic Idealize.ShloMosaic.TcCoe Idealize.SL.Sem Idealize.ShloMosaic.ValueIdx
open Idealize.ShloMosaic.Pipeline (Dat)
open scoped BigOperators

namespace Cert.KernelIdeal.SquareSums

open Cert.KernelIdeal Cert.KernelIdeal.Gen Cert.LossSpec Cert.KernelIdeal.LogSums

/-! ## One block's contribution to a lane -/

/-- The stored row of the first array: lane `q` of what was there plus the block's column sum of squares. -/
theorem square_update3 (x : Vec Ideal S8192x128 .f32) (v : Vec Ideal S1x128 .f32) (q : Fin 128) :
    k1_pay3 (F := Ideal) x v (ix2 0 q) = v (ix2 0 q) + ∑ r : Fin 8192, x (ix2 r q) * x (ix2 r q) := by
  unfold k1_pay3
  dsimp only
  refine (ValueIdx.addf_apply _ _ _).trans ?_
  refine congrArg₂ (· + ·) (congrFun (shapeCast_self _ _) _) ?_
  refine (shapeCast_apply _ shapeCasts_S128_S1x128 (ix2 0 q) (ix1 q) ?_).trans ?_
  · rw [Shape.rowMajor_val_one, Shape.rowMajor_val_two]
    show q.val = 0 * 128 + q.val
    omega
  refine (Ideal.multiReduction_add_single _ 0x00000000#32 reduces_S8192x128_S128 (.inl rfl) rfl (ix1 q)).trans ?_
  show ∑ k : Fin 8192, _ = _
  refine Finset.sum_congr rfl fun k _ => ?_
  rw [lift_rows]
  simp only [shapeCast_self]
  rfl

/-- The same for the second array. -/
theorem square_update4 (x : Vec Ideal S8192x128 .f32) (v : Vec Ideal S1x128 .f32) (q : Fin 128) :
    k1_pay4 (F := Ideal) x v (ix2 0 q) = v (ix2 0 q) + ∑ r : Fin 8192, x (ix2 r q) * x (ix2 r q) := by
  unfold k1_pay4
  dsimp only
  refine (ValueIdx.addf_apply _ _ _).trans ?_
  refine congrArg₂ (· + ·) (congrFun (shapeCast_self _ _) _) ?_
  refine (shapeCast_apply _ shapeCasts_S128_S1x128 (ix2 0 q) (ix1 q) ?_).trans ?_
  · rw [Shape.rowMajor_val_one, Shape.rowMajor_val_two]
    show q.val = 0 * 128 + q.val
    omega
  refine (Ideal.multiReduction_add_single _ 0x00000000#32 reduces_S8192x128_S128 (.inl rfl) rfl (ix1 q)).trans ?_
  show ∑ k : Fin 8192, _ = _
  refine Finset.sum_congr rfl fun k _ => ?_
  rw [lift_rows]
  simp only [shapeCast_self]
  rfl

/-! ## What each case leaves in each block -/

/-- A later step, output 2, row 0: the kept row plus the block's column sums of squares. -/
theorem later2_row0 (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : ¬cond1_0 i) (x0 x1 : Vec Ideal S8192x128 .f32) (xo2 xo3 : Vec Ideal S8x128 .f32) (q : Fin 128) :
    out1_B_2 c i a2 h2 a3 h3 a4 h4 a5 h5 hc x0 x1 xo2 xo3 (ix2 0 q)
      = xo2 (ix2 0 q) + ∑ r : Fin 8192, x0 (ix2 r q) * x0 (ix2 r q) := by
  unfold out1_B_2 kernelRun1_B
  dsimp only
  sl_unfold_words
  refine (read_row0 a4.view (h4.unread xo2) _ [] q).trans ?_
  rw [load_whole a2 h2 x0]
  refine (square_update3 x0 _ q).trans ?_
  refine congrArg₂ (· + ·) ?_ rfl
  show a4.view.read (Elt Ideal) (h4.unread xo2) ((Rect.unit (s := S8x128) ![0, 0] S1x128.size inb_S8x128_S1x128_0_0).toLoadRect.idx (ix2 0 q)) = _
  rw [h4.read_unread, row0_idx]

/-- A later step, output 2, the other rows: untouched. -/
theorem later2_rest (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : ¬cond1_0 i) (x0 x1 : Vec Ideal S8192x128 .f32) (xo2 xo3 : Vec Ideal S8x128 .f32) (a : Fin 8) (ha : a.val ≠ 0) (q : Fin 128) :
    out1_B_2 c i a2 h2 a3 h3 a4 h4 a5 h5 hc x0 x1 xo2 xo3 (ix2 a q) = xo2 (ix2 a q) := by
  unfold out1_B_2 kernelRun1_B
  dsimp only
  sl_unfold_words
  refine (read_below a4.view (h4.unread xo2) _ [] a ha q).trans ?_
  show a4.view.read (Elt Ideal) (h4.unread xo2) (ix2 a q) = _
  rw [h4.read_unread]

/-- The first step of a half, output 2, row 0: zero plus the block's column sums of squares. -/
theorem first2_row0 (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : cond1_0 i) (x0 x1 : Vec Ideal S8192x128 .f32) (q : Fin 128) :
    out1_A_2 c i a2 h2 a3 h3 a4 h4 a5 h5 hc x0 x1 (ix2 0 q)
      = zero32 + ∑ r : Fin 8192, x0 (ix2 r q) * x0 (ix2 r q) := by
  unfold out1_A_2 kernelRun1_A
  dsimp only
  sl_unfold_words
  refine (read_row0 VO1_2 VO1_2.junk _ _ q).trans ?_
  rw [load_whole a2 h2 x0]
  refine (square_update3 x0 _ q).trans ?_
  refine congrArg₂ (· + ·) ?_ rfl
  show a4.view.read (Elt Ideal) (a4.view.writes (Elt Ideal) a4.view.junk
      [(⟨Rect.unit (s := S8x128) ![0, 0] S8x128.size inb_S8x128_S8x128_0_0, k1_pay1 (F := Ideal)⟩ : View.Piece (Elt Ideal) S8x128 .f32)])
    ((Rect.unit (s := S8x128) ![0, 0] S1x128.size inb_S8x128_S1x128_0_0).toLoadRect.idx (ix2 0 q)) = _
  rw [row0_idx]
  exact read_whole a4.view a4.view.junk (k1_pay1 (F := Ideal)) (ix2 0 q)

/-- The first step of a half, output 2, the other rows: zero. -/
theorem first2_rest (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : cond1_0 i) (x0 x1 : Vec Ideal S8192x128 .f32) (a : Fin 8) (ha : a.val ≠ 0) (q : Fin 128) :
    out1_A_2 c i a2 h2 a3 h3 a4 h4 a5 h5 hc x0 x1 (ix2 a q) = zero32 := by
  unfold out1_A_2 kernelRun1_A
  dsimp only
  sl_unfold_words
  refine (read_below VO1_2 VO1_2.junk _ _ a ha q).trans ?_
  exact read_whole VO1_2 VO1_2.junk (k1_pay1 (F := Ideal)) (ix2 a q)

/-- A later step, output 3, row 0: the kept row plus the block's column sums of squares. -/
theorem later3_row0 (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : ¬cond1_0 i) (x0 x1 : Vec Ideal S8192x128 .f32) (xo2 xo3 : Vec Ideal S8x128 .f32) (q : Fin 128) :
    out1_B_3 c i a2 h2 a3 h3 a4 h4 a5 h5 hc x0 x1 xo2 xo3 (ix2 0 q)
      = xo3 (ix2 0 q) + ∑ r : Fin 8192, x1 (ix2 r q) * x1 (ix2 r q) := by
  unfold out1_B_3 kernelRun1_B
  dsimp only
  sl_unfold_words
  refine (read_row0 a5.view (h5.unread xo3) _ [] q).trans ?_
  rw [load_whole a3 h3 x1]
  refine (square_update4 x1 _ q).trans ?_
  refine congrArg₂ (· + ·) ?_ rfl
  show a5.view.read (Elt Ideal) (h5.unread xo3) ((Rect.unit (s := S8x128) ![0, 0] S1x128.size inb_S8x128_S1x128_0_0).toLoadRect.idx (ix2 0 q)) = _
  rw [h5.read_unread, row0_idx]

/-- A later step, output 3, the other rows: untouched. -/
theorem later3_rest (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : ¬cond1_0 i) (x0 x1 : Vec Ideal S8192x128 .f32) (xo2 xo3 : Vec Ideal S8x128 .f32) (a : Fin 8) (ha : a.val ≠ 0) (q : Fin 128) :
    out1_B_3 c i a2 h2 a3 h3 a4 h4 a5 h5 hc x0 x1 xo2 xo3 (ix2 a q) = xo3 (ix2 a q) := by
  unfold out1_B_3 kernelRun1_B
  dsimp only
  sl_unfold_words
  refine (read_below a5.view (h5.unread xo3) _ [] a ha q).trans ?_
  show a5.view.read (Elt Ideal) (h5.unread xo3) (ix2 a q) = _
  rw [h5.read_unread]

/-- The first step of a half, output 3, row 0: zero plus the block's column sums of squares. -/
theorem first3_row0 (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : cond1_0 i) (x0 x1 : Vec Ideal S8192x128 .f32) (q : Fin 128) :
    out1_A_3 c i a2 h2 a3 h3 a4 h4 a5 h5 hc x0 x1 (ix2 0 q)
      = zero32 + ∑ r : Fin 8192, x1 (ix2 r q) * x1 (ix2 r q) := by
  unfold out1_A_3 kernelRun1_A
  dsimp only
  sl_unfold_words
  refine (read_row0 VO1_3 VO1_3.junk _ _ q).trans ?_
  rw [load_whole a3 h3 x1]
  refine (square_update4 x1 _ q).trans ?_
  refine congrArg₂ (· + ·) ?_ rfl
  show a5.view.read (Elt Ideal) (a5.view.writes (Elt Ideal) a5.view.junk
      [(⟨Rect.unit (s := S8x128) ![0, 0] S8x128.size inb_S8x128_S8x128_0_0, k1_pay2 (F := Ideal)⟩ : View.Piece (Elt Ideal) S8x128 .f32)])
    ((Rect.unit (s := S8x128) ![0, 0] S1x128.size inb_S8x128_S1x128_0_0).toLoadRect.idx (ix2 0 q)) = _
  rw [row0_idx]
  exact read_whole a5.view a5.view.junk (k1_pay2 (F := Ideal)) (ix2 0 q)

/-- The first step of a half, output 3, the other rows: zero. -/
theorem first3_rest (c : Dev nD) (i : grid1.Coords) (a2 : Memref sig .tc .vmem S8192x128 .f32) (h2 : a2.IsWhole)
    (a3 : Memref sig .tc .vmem S8192x128 .f32) (h3 : a3.IsWhole) (a4 : Memref sig .tc .vmem S8x128 .f32) (h4 : a4.IsWhole)
    (a5 : Memref sig .tc .vmem S8x128 .f32) (h5 : a5.IsWhole)
    (hc : cond1_0 i) (x0 x1 : Vec Ideal S8192x128 .f32) (a : Fin 8) (ha : a.val ≠ 0) (q : Fin 128) :
    out1_A_3 c i a2 h2 a3 h3 a4 h4 a5 h5 hc x0 x1 (ix2 a q) = zero32 := by
  unfold out1_A_3 kernelRun1_A
  dsimp only
  sl_unfold_words
  refine (read_below VO1_3 VO1_3.junk _ _ a ha q).trans ?_
  exact read_whole VO1_3 VO1_3.junk (k1_pay2 (F := Ideal)) (ix2 a q)

/-! ## The two running rows, point by point -/

section Points

variable (V : (c : Dev nD) → (b : Ref sig .tc) → Buf (Elt Ideal) ((c : Thread nD τ).loc b))

/-- The two weight arrays as the region finds them: 32768 rows of 128 lanes. -/
abbrev wA (c : Dev nD) : Vec Ideal S32768x128 .f32 := V c main_v6
abbrev wB (c : Dev nD) : Vec Ideal S32768x128 .f32 := V c main_v7
/-- Their blocks of 8192 rows at a grid point. -/
abbrev blkA (c : Dev nD) (t : Fin cfg1.N) : Vec Ideal S8192x128 .f32 := iblk1 V c 0 t
abbrev blkB (c : Dev nD) (t : Fin cfg1.N) : Vec Ideal S8192x128 .f32 := iblk1 V c 1 t

/-- The squares of the entries. -/
def sqA (c : Dev nD) : S32768x128.Idx → EReal := fun k => wA V c k * wA V c k
def sqB (c : Dev nD) : S32768x128.Idx → EReal := fun k => wB V c k * wB V c k

/-- Block `n`'s column sums of squares (zero past the four blocks). -/
def partA (c : Dev nD) : ℕ → Fin 128 → EReal := fun n q =>
  if h : n < 4 then blockColSum (T := 4) (N := 32768) rfl (sqA V c) ⟨n, h⟩ q else 0
def partB (c : Dev nD) : ℕ → Fin 128 → EReal := fun n q =>
  if h : n < 4 then blockColSum (T := 4) (N := 32768) rfl (sqB V c) ⟨n, h⟩ q else 0

/-- Point `t` is handed block `t` of both inputs; its output blocks are block `t / 2` of each output array. -/
theorem idx_in : ∀ t : Fin cfg1.N, win1_0.index t 0 = t.val ∧ win1_0.index t 1 = 0 ∧ win1_1.index t 0 = t.val ∧ win1_1.index t 1 = 0 :=
  (by decide +kernel : ∀ t : Fin grid1.N, win1_0.index t 0 = t.val ∧ win1_0.index t 1 = 0 ∧ win1_1.index t 0 = t.val ∧ win1_1.index t 1 = 0)
theorem idx_out : ∀ t : Fin cfg1.N, win1_2.index t 0 = t.val / 2 ∧ win1_2.index t 1 = 0 ∧ win1_3.index t 0 = t.val / 2 ∧ win1_3.index t 1 = 0 :=
  (by decide +kernel : ∀ t : Fin grid1.N, win1_2.index t 0 = t.val / 2 ∧ win1_2.index t 1 = 0 ∧ win1_3.index t 0 = t.val / 2 ∧ win1_3.index t 1 = 0)

theorem lt4 (t : Fin cfg1.N) : t.val < 4 := lt_of_lt_of_eq t.isLt N_1

/-- Entry `(r, q)` of point `t`'s block is entry `(8192·t + r, q)` of the array. -/
theorem blkA_apply (c : Dev nD) (t : Fin cfg1.N) (r : Fin 8192) (q : Fin 128) :
    blkA V c t (ix2 r q) = wA V c (ix2 (blockRow (T := 4) (N := 32768) rfl ⟨t.val, lt4 t⟩ r) q) := by
  show (((cfg1.win 0).blk t).view.read (Elt Ideal) (V c (Pipeline.arrRef spec1 0))) (ix2 r q) = _
  rw [View.read_apply]
  show V c main_v6 _ = V c main_v6 _
  refine congrArg (V c main_v6) (funext fun a => Fin.ext ?_)
  match a with
  | ⟨0, _⟩ => show win1_0.index t 0 * 8192 + 1 * r.val = t.val * 8192 + r.val; rw [(idx_in t).1]; omega
  | ⟨1, _⟩ => show win1_0.index t 1 * 128 + 1 * q.val = q.val; rw [(idx_in t).2.1]; omega

theorem blkB_apply (c : Dev nD) (t : Fin cfg1.N) (r : Fin 8192) (q : Fin 128) :
    blkB V c t (ix2 r q) = wB V c (ix2 (blockRow (T := 4) (N := 32768) rfl ⟨t.val, lt4 t⟩ r) q) := by
  show (((cfg1.win 1).blk t).view.read (Elt Ideal) (V c (Pipeline.arrRef spec1 1))) (ix2 r q) = _
  rw [View.read_apply]
  show V c main_v7 _ = V c main_v7 _
  refine congrArg (V c main_v7) (funext fun a => Fin.ext ?_)
  match a with
  | ⟨0, _⟩ => show win1_1.index t 0 * 8192 + 1 * r.val = t.val * 8192 + r.val; rw [(idx_in t).2.2.1]; omega
  | ⟨1, _⟩ => show win1_1.index t 1 * 128 + 1 * q.val = q.val; rw [(idx_in t).2.2.2]; omega

/-- So what point `t` adds to lane `q` of each row is block `t`'s column sum of squares. -/
theorem blkA_sum (c : Dev nD) (t : Fin cfg1.N) (q : Fin 128) :
    ∑ r : Fin 8192, blkA V c t (ix2 r q) * blkA V c t (ix2 r q) = partA V c t.val q := by
  unfold partA
  rw [dif_pos (lt4 t)]
  unfold blockColSum sqA
  refine Finset.sum_congr rfl fun r _ => ?_
  rw [blkA_apply]

theorem blkB_sum (c : Dev nD) (t : Fin cfg1.N) (q : Fin 128) :
    ∑ r : Fin 8192, blkB V c t (ix2 r q) * blkB V c t (ix2 r q) = partB V c t.val q := by
  unfold partB
  rw [dif_pos (lt4 t)]
  unfold blockColSum sqB
  refine Finset.sum_congr rfl fun r _ => ?_
  rw [blkB_apply]

/-- After point `n` each kept block holds its running row in row 0 and zeros below it. -/
theorem rows_inv (c : Dev nD) : ∀ (n : ℕ) (hn : n < cfg1.N) (a : Fin 8) (q : Fin 128),
    (outsAt1 V c n hn).1 (ix2 a q) = (if a.val = 0 then running 2 (partA V c) n q else zero32)
    ∧ (outsAt1 V c n hn).2 (ix2 a q) = (if a.val = 0 then running 2 (partB V c) n q else zero32)
  | 0, hn, a, q => by
    have key := outsAt1_A V c ⟨0, hn⟩ (Nat.zero_mod 2)
    rw [show outsAt1 V c 0 hn = _ from key]
    dsimp only
    by_cases ha : a.val = 0
    · obtain rfl : a = 0 := Fin.ext ha
      rw [if_pos ha, if_pos ha]
      refine ⟨?_, ?_⟩
      · refine (first2_row0 c _ _ _ _ _ _ _ _ _ _ (blkA V c ⟨0, hn⟩) (blkB V c ⟨0, hn⟩) q).trans ?_
        rw [blkA_sum V c ⟨0, hn⟩ q]; rfl
      · refine (first3_row0 c _ _ _ _ _ _ _ _ _ _ (blkA V c ⟨0, hn⟩) (blkB V c ⟨0, hn⟩) q).trans ?_
        rw [blkB_sum V c ⟨0, hn⟩ q]; rfl
    · rw [if_neg ha, if_neg ha]
      exact ⟨first2_rest c _ _ _ _ _ _ _ _ _ _ (blkA V c ⟨0, hn⟩) (blkB V c ⟨0, hn⟩) a ha q,
        first3_rest c _ _ _ _ _ _ _ _ _ _ (blkA V c ⟨0, hn⟩) (blkB V c ⟨0, hn⟩) a ha q⟩
  | n + 1, hn, a, q => by
    by_cases h0 : (n + 1) % 2 = 0
    · have key := outsAt1_A V c ⟨n + 1, hn⟩ h0
      rw [show outsAt1 V c (n + 1) hn = _ from key]
      dsimp only
      by_cases ha : a.val = 0
      · obtain rfl : a = 0 := Fin.ext ha
        rw [if_pos ha, if_pos ha, running_restart 2 _ (n + 1) h0, running_restart 2 _ (n + 1) h0]
        refine ⟨?_, ?_⟩
        · refine (first2_row0 c _ _ _ _ _ _ _ _ _ _ (blkA V c ⟨n + 1, hn⟩) (blkB V c ⟨n + 1, hn⟩) q).trans ?_
          rw [blkA_sum V c ⟨n + 1, hn⟩ q]
        · refine (first3_row0 c _ _ _ _ _ _ _ _ _ _ (blkA V c ⟨n + 1, hn⟩) (blkB V c ⟨n + 1, hn⟩) q).trans ?_
          rw [blkB_sum V c ⟨n + 1, hn⟩ q]
      · rw [if_neg ha, if_neg ha]
        exact ⟨first2_rest c _ _ _ _ _ _ _ _ _ _ (blkA V c ⟨n + 1, hn⟩) (blkB V c ⟨n + 1, hn⟩) a ha q,
          first3_rest c _ _ _ _ _ _ _ _ _ _ (blkA V c ⟨n + 1, hn⟩) (blkB V c ⟨n + 1, hn⟩) a ha q⟩
    · have key := outsAt1_B V c ⟨n + 1, hn⟩ h0
      rw [show outsAt1 V c (n + 1) hn = _ from key]
      dsimp only
      have ih := rows_inv c n (Nat.lt_of_succ_lt hn) a q
      by_cases ha : a.val = 0
      · obtain rfl : a = 0 := Fin.ext ha
        rw [if_pos ha, if_pos ha, running_step 2 _ (n + 1) h0, running_step 2 _ (n + 1) h0]
        rw [if_pos ha, if_pos ha] at ih
        refine ⟨?_, ?_⟩
        · refine (later2_row0 c _ _ _ _ _ _ _ _ _ _ (blkA V c ⟨n + 1, hn⟩) (blkB V c ⟨n + 1, hn⟩) _ _ q).trans ?_
          rw [blkA_sum V c ⟨n + 1, hn⟩ q]
          exact congrArg₂ (· + ·) ih.1 rfl
        · refine (later3_row0 c _ _ _ _ _ _ _ _ _ _ (blkA V c ⟨n + 1, hn⟩) (blkB V c ⟨n + 1, hn⟩) _ _ q).trans ?_
          rw [blkB_sum V c ⟨n + 1, hn⟩ q]
          exact congrArg₂ (· + ·) ih.2 rfl
      · rw [if_neg ha, if_neg ha]
        rw [if_neg ha, if_neg ha] at ih
        exact ⟨(later2_rest c _ _ _ _ _ _ _ _ _ _ (blkA V c ⟨n + 1, hn⟩) (blkB V c ⟨n + 1, hn⟩) _ _ a ha q).trans ih.1,
          (later3_rest c _ _ _ _ _ _ _ _ _ _ (blkA V c ⟨n + 1, hn⟩) (blkB V c ⟨n + 1, hn⟩) _ _ a ha q).trans ih.2⟩

/-! ## The two 16 × 128 arrays of partial sums -/

/-- Row `i`, lane `q` of an array the region leaves, over the blocks' column sums `part`: the running row of half
    `i / 8` after its second step in rows 0 and 8, zero in the other rows. -/
def partialAt (part : ℕ → Fin 128 → EReal) (i : Fin 16) (q : Fin 128) : EReal :=
  if i.val % 8 = 0 then running 2 part (i.val / 8 * 2 + 1) q else zero32

def partials (part : ℕ → Fin 128 → EReal) : S16x128.Idx → EReal := fun j => partialAt part (j 0) (j 1)

/-- Row `8·(t / 2) + a` of the array, for the second step `t` of a half, is row `a` of the block kept after `t`. -/
theorem partials_at (part : ℕ → Fin 128 → EReal) (j : S16x128.Idx) (a : Fin 8) (q : Fin 128) (t : ℕ)
    (h0 : (j 0).val = t / 2 * 8 + a.val) (h1 : (j 1).val = q.val) (h7 : t % 2 = 1) :
    partials part j = if a.val = 0 then running 2 part t q else zero32 := by
  have ha := a.isLt
  unfold partials partialAt
  by_cases hz0 : a.val = 0
  · rw [if_pos hz0, if_pos (by omega)]
    have e1 : (j 0).val / 8 * 2 + 1 = t := by omega
    have e2 : (j 1 : Fin 128) = q := Fin.ext h1
    rw [e1, e2]
  · rw [if_neg hz0, if_neg (by omega)]

/-- What the second step of a half writes back is its block of each array. -/
theorem flushedA_eq (c : Dev nD) (t : Fin cfg1.N) (hf : (cfg1.win 2).flush t = true) :
    (dat1 V c).flushed 2 t = ((cfg1.win 2).blk t).view.read (Elt Ideal) (partials (partA V c)) := by
  have h7 : t.val % 2 = 1 := (flush1_2 t).mp hf
  funext y
  obtain ⟨a, q, rfl⟩ : ∃ (a : Fin 8) (q : Fin 128), y = ix2 a q := ⟨y 0, y 1, eq_ix2 y⟩
  rw [View.read_apply]
  show (dat1 V c).after 2 t (ix2 a q) = partials (partA V c) (((cfg1.win 2).blk t).view.emb (ix2 a q))
  rw [after1_2, (rows_inv V c t.val t.isLt a q).1]
  refine (partials_at (partA V c) _ a q t.val ?_ ?_ h7).symm
  · show win1_2.index t 0 * 8 + 1 * a.val = t.val / 2 * 8 + a.val
    rw [(idx_out t).1]; omega
  · show win1_2.index t 1 * 128 + 1 * q.val = q.val
    rw [(idx_out t).2.1]; omega

theorem flushedB_eq (c : Dev nD) (t : Fin cfg1.N) (hf : (cfg1.win 3).flush t = true) :
    (dat1 V c).flushed 3 t = ((cfg1.win 3).blk t).view.read (Elt Ideal) (partials (partB V c)) := by
  have h7 : t.val % 2 = 1 := (flush1_3 t).mp hf
  funext y
  obtain ⟨a, q, rfl⟩ : ∃ (a : Fin 8) (q : Fin 128), y = ix2 a q := ⟨y 0, y 1, eq_ix2 y⟩
  rw [View.read_apply]
  show (dat1 V c).after 3 t (ix2 a q) = partials (partB V c) (((cfg1.win 3).blk t).view.emb (ix2 a q))
  rw [after1_3, (rows_inv V c t.val t.isLt a q).2]
  refine (partials_at (partB V c) _ a q t.val ?_ ?_ h7).symm
  · show win1_3.index t 0 * 8 + 1 * a.val = t.val / 2 * 8 + a.val
    rw [(idx_out t).2.2.1]; omega
  · show win1_3.index t 1 * 128 + 1 * q.val = q.val
    rw [(idx_out t).2.2.2]; omega

/-- The two write-backs cover each array, so it ends as `partials`. -/
theorem finalA (c : Dev nD) : (dat1 V c).arrAt 2 cfg1.N = partials (partA V c) :=
  (dat1 V c).arrAt_eq_of_cover 2 (partials (partA V c)) (flushedA_eq V c) fun i => by
    have hi0 : (i 0 : ℕ) < 16 := (i 0).isLt
    have hi1 : (i 1 : ℕ) < 128 := (i 1).isLt
    have ht : (i 0 : ℕ) / 8 * 2 + 1 < cfg1.N := by rw [show cfg1.N = 4 from N_1]; omega
    refine ⟨⟨(i 0 : ℕ) / 8 * 2 + 1, ht⟩, (flush1_2 _).mpr (by show ((i 0 : ℕ) / 8 * 2 + 1) % 2 = 1; omega), ?_⟩
    show i ∈ ((View.whole main_v8_0).slice (win1_2.rect ⟨(i 0 : ℕ) / 8 * 2 + 1, ht⟩)).set
    rw [View.set_slice_whole, Rect.mem_set_unit]
    intro a
    match a with
    | ⟨0, _⟩ =>
      show win1_2.index ⟨(i 0 : ℕ) / 8 * 2 + 1, ht⟩ 0 * 8 ≤ (i 0 : ℕ) ∧ (i 0 : ℕ) < win1_2.index ⟨(i 0 : ℕ) / 8 * 2 + 1, ht⟩ 0 * 8 + 8
      rw [(idx_out ⟨(i 0 : ℕ) / 8 * 2 + 1, ht⟩).1]
      show ((i 0 : ℕ) / 8 * 2 + 1) / 2 * 8 ≤ (i 0 : ℕ) ∧ (i 0 : ℕ) < ((i 0 : ℕ) / 8 * 2 + 1) / 2 * 8 + 8
      omega
    | ⟨1, _⟩ =>
      show win1_2.index ⟨(i 0 : ℕ) / 8 * 2 + 1, ht⟩ 1 * 128 ≤ (i 1 : ℕ) ∧ (i 1 : ℕ) < win1_2.index ⟨(i 0 : ℕ) / 8 * 2 + 1, ht⟩ 1 * 128 + 128
      rw [(idx_out ⟨(i 0 : ℕ) / 8 * 2 + 1, ht⟩).2.1]
      omega

theorem finalB (c : Dev nD) : (dat1 V c).arrAt 3 cfg1.N = partials (partB V c) :=
  (dat1 V c).arrAt_eq_of_cover 3 (partials (partB V c)) (flushedB_eq V c) fun i => by
    have hi0 : (i 0 : ℕ) < 16 := (i 0).isLt
    have hi1 : (i 1 : ℕ) < 128 := (i 1).isLt
    have ht : (i 0 : ℕ) / 8 * 2 + 1 < cfg1.N := by rw [show cfg1.N = 4 from N_1]; omega
    refine ⟨⟨(i 0 : ℕ) / 8 * 2 + 1, ht⟩, (flush1_3 _).mpr (by show ((i 0 : ℕ) / 8 * 2 + 1) % 2 = 1; omega), ?_⟩
    show i ∈ ((View.whole main_v8_1).slice (win1_3.rect ⟨(i 0 : ℕ) / 8 * 2 + 1, ht⟩)).set
    rw [View.set_slice_whole, Rect.mem_set_unit]
    intro a
    match a with
    | ⟨0, _⟩ =>
      show win1_3.index ⟨(i 0 : ℕ) / 8 * 2 + 1, ht⟩ 0 * 8 ≤ (i 0 : ℕ) ∧ (i 0 : ℕ) < win1_3.index ⟨(i 0 : ℕ) / 8 * 2 + 1, ht⟩ 0 * 8 + 8
      rw [(idx_out ⟨(i 0 : ℕ) / 8 * 2 + 1, ht⟩).2.2.1]
      show ((i 0 : ℕ) / 8 * 2 + 1) / 2 * 8 ≤ (i 0 : ℕ) ∧ (i 0 : ℕ) < ((i 0 : ℕ) / 8 * 2 + 1) / 2 * 8 + 8
      omega
    | ⟨1, _⟩ =>
      show win1_3.index ⟨(i 0 : ℕ) / 8 * 2 + 1, ht⟩ 1 * 128 ≤ (i 1 : ℕ) ∧ (i 1 : ℕ) < win1_3.index ⟨(i 0 : ℕ) / 8 * 2 + 1, ht⟩ 1 * 128 + 128
      rw [(idx_out ⟨(i 0 : ℕ) / 8 * 2 + 1, ht⟩).2.2.2]
      omega

/-- An array of that form adds up to the four blocks' column sums over all lanes. -/
theorem total_of (part : ℕ → Fin 128 → EReal) : ∑ j, partials part j = ∑ q : Fin 128, ∑ t : Fin 4, part t.val q := by
  rw [sum_two_rows (partials part) (running 2 part 1) (running 2 part 3) (fun i q => by
    have hi := i.isLt
    show partialAt part i q = _
    unfold partialAt
    by_cases h0 : i.val = 0
    · rw [if_pos h0, if_pos (by omega), h0]
    · rw [if_neg h0]
      by_cases h8 : i.val = 8
      · rw [if_pos h8, if_pos (by omega), h8]
      · rw [if_neg h8, if_neg (by omega)]; exact zero32_eq)]
  simp only [running2_total]

/-- Each array's entries add up to the sum of squares of its weight array. -/
theorem totalA (c : Dev nD) : ∑ j, partials (partA V c) j = ∑ k, sqA V c k := by
  rw [total_of, ← sum_blockColSum (T := 4) (N := 32768) rfl (sqA V c)]
  refine Finset.sum_congr rfl fun q _ => Finset.sum_congr rfl fun t _ => ?_
  unfold partA
  rw [dif_pos t.isLt]

theorem totalB (c : Dev nD) : ∑ j, partials (partB V c) j = ∑ k, sqB V c k := by
  rw [total_of, ← sum_blockColSum (T := 4) (N := 32768) rfl (sqB V c)]
  refine Finset.sum_congr rfl fun q _ => Finset.sum_congr rfl fun t _ => ?_
  unfold partB
  rw [dif_pos t.isLt]

end Points

end Cert.KernelIdeal.SquareSums

end
-- ==== Proof.HostSide.lean ====
/-
  The host operations of the program around its two regions, read as values.

  The program runs, in order: two reshapes (the probabilities, a column of 16777216 entries, and the labels, a vector
  of 16777216 entries, each relaid row-major as 131072 × 128); region 0, which writes one 16 × 128 array of partial
  sums; a stretch that adds up that array from 0, negates the sum, divides it by 2^24, and relays the two weight arrays
  (1024 × 4096 and 4096 × 1024) row-major as 32768 × 128; region 1, which writes two 16 × 128 arrays of partial sums;
  and a last stretch that adds up each of those from 0, takes the two square roots, adds them, multiplies by the
  constant 0.002 and adds the quotient kept from before.

  Each stretch is a fixed list of operations, each writing one buffer from the contents of others, so the contents a
  stretch leaves at a buffer is a composition of its operations over the contents it started from. The first half of
  the module says this for each stretch over ARBITRARY starting contents (the arrays it reads are variables); the
  second half instantiates the starting contents along the run: the launch memory before region 0, what region 0's
  write-backs leave before region 1 (an argument array, which no operation and no region writes, still holds the launch
  memory), what region 1's write-backs leave before the last stretch. The results: the arrays each region finds are
  the reshaped inputs, and the result buffer ends at the closed expression in the two regions' output arrays.
-/
import proofs.«401046_j82171314307686_3_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## The three host stretches over arbitrary buffer contents `W` -/

/-- The first stretch leaves at main_v0 the row-major relaying, as 131072 × 128, of what main_arg0 holds. -/
theorem head_probs_of (W : Valuation τ sig (Elt F)) (x : (⟨S16777216x1, .f32⟩ : BufTy).Contents (Elt F))
    (hx : W (Proc.devRef .tc main_arg0) = x) :
    StableHlo.after hostOps0 W (Proc.devRef .tc main_v0) = shapeCast S131072x128 x shapeCasts_S16777216x1_S131072x128 := by
  after_results
  rw [hx]
  rfl

/-- The first stretch leaves at main_v1 the row-major relaying, as 131072 × 128, of what main_arg1 holds. -/
theorem head_labels_of (W : Valuation τ sig (Elt F)) (x : (⟨S16777216, .i32⟩ : BufTy).Contents (Elt F))
    (hx : W (Proc.devRef .tc main_arg1) = x) :
    StableHlo.after hostOps0 W (Proc.devRef .tc main_v1) = shapeCast S131072x128 x shapeCasts_S16777216_S131072x128 := by
  after_results
  rw [hx]
  rfl

/-- No operation of the first stretch writes main_arg2 … -/
theorem head_arg2_of (W : Valuation τ sig (Elt F)) :
    StableHlo.after hostOps0 W (Proc.devRef .tc main_arg2) = W (Proc.devRef .tc main_arg2) := by
  after_results

/-- … or main_arg3. -/
theorem head_arg3_of (W : Valuation τ sig (Elt F)) :
    StableHlo.after hostOps0 W (Proc.devRef .tc main_arg3) = W (Proc.devRef .tc main_arg3) := by
  after_results

/-- The middle stretch leaves at main_v6 the row-major relaying, as 32768 × 128, of what main_arg2 holds. -/
theorem mid_w1_of (W : Valuation τ sig (Elt F)) (x : (⟨S1024x4096, .f32⟩ : BufTy).Contents (Elt F))
    (hx : W (Proc.devRef .tc main_arg2) = x) :
    StableHlo.after hostOps1 W (Proc.devRef .tc main_v6) = shapeCast S32768x128 x shapeCasts_S1024x4096_S32768x128 := by
  after_results
  rw [hx]
  rfl

/-- The middle stretch leaves at main_v7 the row-major relaying, as 32768 × 128, of what main_arg3 holds. -/
theorem mid_w2_of (W : Valuation τ sig (Elt F)) (x : (⟨S4096x1024, .f32⟩ : BufTy).Contents (Elt F))
    (hx : W (Proc.devRef .tc main_arg3) = x) :
    StableHlo.after hostOps1 W (Proc.devRef .tc main_v7) = shapeCast S32768x128 x shapeCasts_S4096x1024_S32768x128 := by
  after_results
  rw [hx]
  rfl

/-- The middle stretch leaves at main_v5 the negated sum of the array `a` at main_v2, divided by 2^24. -/
theorem mid_mean_of (W : Valuation τ sig (Elt F)) (a : (⟨S16x128, .f32⟩ : BufTy).Contents (Elt F))
    (ha : W (Proc.devRef .tc main_v2) = a) :
    StableHlo.after hostOps1 W (Proc.devRef .tc main_v5)
      = Host.divf (Host.negf (Host.reduceAdd a (constant S_ .f32 0x00000000#32) reducesTo_S16x128_S_d0_1 h_S_)) (constant S_ .f32 0x4B800000#32) := by
  after_results
  rw [ha]

/-- The last stretch leaves at main_v15 the scalar `l` at main_v5 plus 0.002 times the sum of the square roots of the
    sums of the arrays `a` at main_v8_0 and `b` at main_v8_1. -/
theorem tail_of (W : Valuation τ sig (Elt F)) (l : (⟨S_, .f32⟩ : BufTy).Contents (Elt F)) (a b : (⟨S16x128, .f32⟩ : BufTy).Contents (Elt F))
    (hl : W (Proc.devRef .tc main_v5) = l) (ha : W (Proc.devRef .tc main_v8_0) = a) (hb : W (Proc.devRef .tc main_v8_1) = b) :
    StableHlo.after hostOps2 W (Proc.devRef .tc main_v15)
      = addf l (mulf (constant S_ .f32 0x3B03126F#32)
          (addf (Host.sqrt (Host.reduceAdd a (constant S_ .f32 0x00000000#32) reducesTo_S16x128_S_d0_1 h_S_))
                (Host.sqrt (Host.reduceAdd b (constant S_ .f32 0x00000000#32) reducesTo_S16x128_S_d0_1 h_S_)))) := by
  after_results
  rw [hl, ha, hb]

/-! ## Along the run: what each region finds -/

/-- Region 0 finds the probabilities reshaped to 131072 × 128 … -/
theorem V1_probs (c : Dev nD) : V1 m ρ c main_v0 = shapeCast S131072x128 (m ((c : Thread nD τ).loc main_arg0)) shapeCasts_S16777216x1_S131072x128 :=
  head_probs_of (W0 m ρ c) _ rfl

/-- … and the labels reshaped to 131072 × 128. -/
theorem V1_labels (c : Dev nD) : V1 m ρ c main_v1 = shapeCast S131072x128 (m ((c : Thread nD τ).loc main_arg1)) shapeCasts_S16777216_S131072x128 :=
  head_labels_of (W0 m ρ c) _ rfl

/-- At region 0's exit the first weight array is as launched: it is no array of the region, and the first stretch does
    not write it. -/
theorem W2_arg2 (c : Dev nD) : W2 m ρ c (Proc.devRef .tc main_arg2) = m ((c : Thread nD τ).loc main_arg2) :=
  (W2_of_ne m ρ c main_arg2 (by decide)).trans (head_arg2_of (W0 m ρ c))

/-- The same for the second weight array. -/
theorem W2_arg3 (c : Dev nD) : W2 m ρ c (Proc.devRef .tc main_arg3) = m ((c : Thread nD τ).loc main_arg3) :=
  (W2_of_ne m ρ c main_arg3 (by decide)).trans (head_arg3_of (W0 m ρ c))

/-- Region 1 finds the two weight arrays reshaped to 32768 × 128: the first … -/
theorem V3_w1 (c : Dev nD) : V3 m ρ c main_v6 = shapeCast S32768x128 (m ((c : Thread nD τ).loc main_arg2)) shapeCasts_S1024x4096_S32768x128 :=
  mid_w1_of (W2 m ρ c) _ (W2_arg2 m ρ c)

/-- … and the second. -/
theorem V3_w2 (c : Dev nD) : V3 m ρ c main_v7 = shapeCast S32768x128 (m ((c : Thread nD τ).loc main_arg3)) shapeCasts_S4096x1024_S32768x128 :=
  mid_w2_of (W2 m ρ c) _ (W2_arg3 m ρ c)

/-! ## Along the run: the result -/

/-- At region 0's exit its output array (its window 2) holds what its write-backs leave. -/
theorem W2_v2 (c : Dev nD) : W2 m ρ c (Proc.devRef .tc main_v2) = (dat0 (V1 m ρ) c).arrAt 2 cfg0.N := W2_arr m ρ c 2

/-- At region 1's exit its two output arrays (its windows 2 and 3) hold what its write-backs leave. -/
theorem W4_v8_0 (c : Dev nD) : W4 m ρ c (Proc.devRef .tc main_v8_0) = (dat1 (V3 m ρ) c).arrAt 2 cfg1.N := W4_arr m ρ c 2
theorem W4_v8_1 (c : Dev nD) : W4 m ρ c (Proc.devRef .tc main_v8_1) = (dat1 (V3 m ρ) c).arrAt 3 cfg1.N := W4_arr m ρ c 3

/-- At region 1's exit main_v5 still holds what the middle stretch computed from region 0's output: region 1 has no
    window on it. -/
theorem W4_v5 (c : Dev nD) : W4 m ρ c (Proc.devRef .tc main_v5)
    = Host.divf (Host.negf (Host.reduceAdd ((dat0 (V1 m ρ) c).arrAt 2 cfg0.N) (constant S_ .f32 0x00000000#32) reducesTo_S16x128_S_d0_1 h_S_)) (constant S_ .f32 0x4B800000#32) :=
  (W4_of_ne m ρ c main_v5 (by decide)).trans (mid_mean_of (W2 m ρ c) _ (W2_v2 m ρ c))

/-- The result buffer ends at the host operations applied to what the two regions left. -/
theorem result_eq (c : Dev nD) : W5 m ρ c (Proc.devRef .tc main_v15)
      = addf (Host.divf (Host.negf (Host.reduceAdd ((dat0 (V1 m ρ) c).arrAt 2 cfg0.N) (constant S_ .f32 0x00000000#32) reducesTo_S16x128_S_d0_1 h_S_)) (constant S_ .f32 0x4B800000#32))
          (mulf (constant S_ .f32 0x3B03126F#32)
            (addf (Host.sqrt (Host.reduceAdd ((dat1 (V3 m ρ) c).arrAt 2 cfg1.N) (constant S_ .f32 0x00000000#32) reducesTo_S16x128_S_d0_1 h_S_))
                  (Host.sqrt (Host.reduceAdd ((dat1 (V3 m ρ) c).arrAt 3 cfg1.N) (constant S_ .f32 0x00000000#32) reducesTo_S16x128_S_d0_1 h_S_)))) :=
  tail_of (W4 m ρ c) _ _ _ (W4_v5 m ρ c) (W4_v8_0 m ρ c) (W4_v8_1 m ρ c)

end Cert.KernelIdeal.HostSide

end
-- ==== Proof.KernelValue.lean ====
/-
  The kernel program's result as one number.

  The first region leaves a 16 × 128 array whose entries add up to the picked log-probabilities of all samples; the
  second leaves two such arrays adding up to the sums of squares of the two weight arrays. The host operations around
  them add each array up from zero, negate the first sum and divide it by the number of samples, take the square roots
  of the other two, add them, scale by the regulariser's weight and add. The regions read the inputs through reshapes,
  which keep the entries: so the result is `(-Σ picked) / N + λ (√Σ W1² + √Σ W2²)` of the four input arrays.
-/
import proofs.«401046_j82171314307686_3_alg».proof.Proof.LogSums
import proofs.«401046_j82171314307686_3_alg».proof.Proof.SquareSums
import proofs.«401046_j82171314307686_3_alg».proof.Proof.HostSide

noncomputable section

open Idealize.ShloMosaic Idealize.ShloMosaic.TcCoe Idealize.SL.Sem Idealize.ShloMosaic.ValueIdx
open scoped BigOperators

namespace Cert.KernelIdeal.KernelValue

open Cert.KernelIdeal Cert.KernelIdeal.Gen Cert.LossSpec

variable (m : (ℓ : Loc nD τ sig) → Buf (Elt Ideal) ℓ) (ρ : Dev nD → PrngReg)

/-- The host's sum of a 16 × 128 array from zero is zero plus the sum of its entries. -/
theorem sum_from_zero (A : S16x128.Idx → EReal) (i : S_.Idx) :
    Host.reduceAdd (F := Ideal) A (constant (F := Ideal) S_ .f32 0x00000000#32) reducesTo_S16x128_S_d0_1 h_S_ i = zero32 + ∑ j, A j := by
  simp only [Host.reduceAdd, Ideal.hostReduceAdd_def]
  exact Ideal.hostReduceAdd_total reducesTo_S16x128_S_d0_1 (fun b => b.elim0) A _ i

/-- The host operations after the regions, over any three 16 × 128 arrays, read at the result's one index. -/
theorem tail_value (P PA PB : S16x128.Idx → EReal) (i : S_.Idx) :
    addf (F := Ideal) (Host.divf (F := Ideal) (Host.negf (F := Ideal) (Host.reduceAdd (F := Ideal) P (constant (F := Ideal) S_ .f32 0x00000000#32) reducesTo_S16x128_S_d0_1 h_S_))
        (constant (F := Ideal) S_ .f32 0x4B800000#32))
      (mulf (F := Ideal) (constant (F := Ideal) S_ .f32 0x3B03126F#32)
        (addf (F := Ideal) (Host.sqrt (F := Ideal) (Host.reduceAdd (F := Ideal) PA (constant (F := Ideal) S_ .f32 0x00000000#32) reducesTo_S16x128_S_d0_1 h_S_))
          (Host.sqrt (F := Ideal) (Host.reduceAdd (F := Ideal) PB (constant (F := Ideal) S_ .f32 0x00000000#32) reducesTo_S16x128_S_d0_1 h_S_)))) i
      = Ideal.div (-(zero32 + ∑ j, P j)) two24 + lam32 * (Ideal.sqrt (zero32 + ∑ j, PA j) + Ideal.sqrt (zero32 + ∑ j, PB j)) := by
  rw [← sum_from_zero P i, ← sum_from_zero PA i, ← sum_from_zero PB i]
  rfl

/-- The first region's array adds up to the sample sum of the inputs. -/
theorem logs_total (c : Dev nD) :
    ∑ j, LogSums.partials (V1 m ρ) c j
      = sampleSum clipPick (m ((c : Thread nD τ).loc main_arg0)) (m ((c : Thread nD τ).loc main_arg1)) := by
  rw [LogSums.total (V1 m ρ) c]
  unfold LogSums.picked LogSums.probs LogSums.labels
  rw [HostSide.V1_probs m ρ c, HostSide.V1_labels m ρ c]
  exact sampleSum_reshaped clipPick _ _ _ _

/-- The second region's arrays add up to the sums of squares of the weight arrays. -/
theorem squares_totalA (c : Dev nD) :
    ∑ j, SquareSums.partials (SquareSums.partA (V3 m ρ) c) j = sqSum (m ((c : Thread nD τ).loc main_arg2)) := by
  rw [SquareSums.totalA (V3 m ρ) c]
  unfold SquareSums.sqA SquareSums.wA
  rw [HostSide.V3_w1 m ρ c]
  exact sum_shapeCast _ _ (fun v => v * v)

theorem squares_totalB (c : Dev nD) :
    ∑ j, SquareSums.partials (SquareSums.partB (V3 m ρ) c) j = sqSum (m ((c : Thread nD τ).loc main_arg3)) := by
  rw [SquareSums.totalB (V3 m ρ) c]
  unfold SquareSums.sqB SquareSums.wB
  rw [HostSide.V3_w2 m ρ c]
  exact sum_shapeCast _ _ (fun v => v * v)

/-- The result buffer ends at the loss of the four inputs, the sum negated before the division. -/
theorem result (c : Dev nD) :
    W5 m ρ c (Proc.devRef .tc main_v15)
      = fun _ => negThenMean (m ((c : Thread nD τ).loc main_arg0)) (m ((c : Thread nD τ).loc main_arg1))
          (m ((c : Thread nD τ).loc main_arg2)) (m ((c : Thread nD τ).loc main_arg3)) := by
  rw [HostSide.result_eq m ρ c, LogSums.final (V1 m ρ) c, SquareSums.finalA (V3 m ρ) c, SquareSums.finalB (V3 m ρ) c]
  funext i
  refine (tail_value _ _ _ i).trans ?_
  rw [logs_total m ρ c, squares_totalA m ρ c, squares_totalB m ρ c]
  rfl

end Cert.KernelIdeal.KernelValue

end
-- ==== Proof.RefRun.lean ====
/-
  The reference's straight-line program, read stretch by stretch.

  The reference is a line of 49 host operations: the two-column probabilities `[1 - p, p]`, clamped below at 1e-8
  and their logarithm taken; the labels as a column; the inlined `@take_along_axis` that picks in each row the entry
  at the row's label (a negative label wrapped by the row length, NaN where the index falls outside the row); then
  minus the mean of the picked column, plus 0.002 times the sum of the Frobenius norms of the two weights.

  The line is cut into five stretches. For each stretch and any contents `W` of the buffers before it, a lemma says
  what the stretch leaves in each buffer a later stretch reads, as a function of `W` at the buffers the stretch
  reads, and that it leaves the argument buffers alone. The contents after the whole line (`after` of the
  concatenation is the composition of the `after`s) are then these functions composed, which is the staged value
  `val_main_v20` of the four arguments by unfolding the stages. `run` is that fact carried through the run of a
  straight line (`run_seq`): every weakly fair execution terminates with the result buffer at `val_main_v20` of the
  launch contents of the arguments, and the arguments unchanged.
-/
import proofs.«401046_j82171314307686_3_alg».proof.Proof.RefRunP
import proofs.«401046_j82171314307686_3_alg».proof.Proof.RefReadP
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The label column made an index into a row of two: a negative label has the row length 2 added, and the column is
    reshaped to the index tensor the gather reads. -/
def wrapped (y6 : (⟨S16777216x1, .i32⟩ : BufTy).Contents (Elt F)) : (⟨S16777216x1x1, .i32⟩ : BufTy).Contents (Elt F) :=
  shapeCast _ (select (cmpi .slt y6 (broadcastInDim S16777216x1 ![] bcast_S_S16777216x1 (constantI S_ 32 0#32))) (addi y6 (broadcastInDim S16777216x1 ![] bcast_S_S16777216x1 (constantI S_ 32 2#32))) y6) shapeCasts_S16777216x1_S16777216x1x1

/-- Entrywise, whether an index lies in `0 ≤ j ≤ 1` (the last valid start of a slice of one out of a row of two). -/
def inRange (j : (⟨S16777216x1x1, .i32⟩ : BufTy).Contents (Elt F)) : (⟨S16777216x1x1, .i1⟩ : BufTy).Contents (Elt F) :=
  andi (cmpi .sge j (broadcastInDim S16777216x1x1 ![] bcast_S_S16777216x1x1 (constantI S_ 32 0#32))) (cmpi .sle j (broadcastInDim S16777216x1x1 ![0, 1, 2] bcast_S1x1x1_S16777216x1x1_0_1_2 (broadcastInDim S1x1x1 ![2] bcast_S1_S1x1x1_2 (constantI S1 32 1#32))))

/-- The entry of each row of `y5` at that row's index `j` where the mask `ok` holds along the index vector, and NaN elsewhere. -/
def pickedIf (ok : (⟨S16777216x1x1, .i1⟩ : BufTy).Contents (Elt F)) (y5 : (⟨S16777216x2, .f32⟩ : BufTy).Contents (Elt F)) (j : (⟨S16777216x1x1, .i32⟩ : BufTy).Contents (Elt F)) : (⟨S16777216x1, .f32⟩ : BufTy).Contents (Elt F) :=
  select (Host.reduce IntOp.andi ok (constantI S_ 1 1#1) reducesTo_S16777216x1x1_S16777216x1_d2 h_S_) (Host.gather gather_S16777216x2_S16777216x1x1_S16777216x1_n_1_0_0_1_2_11 y5 j) (broadcastInDim S16777216x1 ![] bcast_S_S16777216x1 (constant S_ .f32 0x7FC00000#32))

/-- The entry of each row of `y5` at that row's index `j`, and NaN where the index is outside `0 ≤ j ≤ 1`. -/
def picked (y5 : (⟨S16777216x2, .f32⟩ : BufTy).Contents (Elt F)) (j : (⟨S16777216x1x1, .i32⟩ : BufTy).Contents (Elt F)) : (⟨S16777216x1, .f32⟩ : BufTy).Contents (Elt F) :=
  pickedIf (inRange j) y5 j

/-- Minus the mean of the picked column over its 16777216 rows, plus 0.002 times the sum of the two weights' Frobenius norms. -/
def loss (y7 : (⟨S16777216x1, .f32⟩ : BufTy).Contents (Elt F)) (x2 : (⟨S1024x4096, .f32⟩ : BufTy).Contents (Elt F)) (x3 : (⟨S4096x1024, .f32⟩ : BufTy).Contents (Elt F)) : (⟨S_, .f32⟩ : BufTy).Contents (Elt F) :=
  addf (Host.negf (Host.divf (Host.reduceAdd (shapeCast _ y7 shapeCasts_S16777216x1_S16777216) (constant S_ .f32 0x00000000#32) reducesTo_S16777216_S_d0 h_S_) (constant S_ .f32 0x4B800000#32))) (mulf (constant S_ .f32 0x3B03126F#32) (addf (Host.sqrt (Host.reduceAdd (mulf x2 x2) (constant S_ .f32 0x00000000#32) reducesTo_S1024x4096_S_d0_1 h_S_)) (Host.sqrt (Host.reduceAdd (mulf x3 x3) (constant S_ .f32 0x00000000#32) reducesTo_S4096x1024_S_d0_1 h_S_))))

/-- The staged value of the call's result is `picked` of the staged log-probabilities at the wrapped staged labels. -/
theorem val_v7_eq (x0 : (⟨S16777216x1, .f32⟩ : BufTy).Contents (Elt F)) (x1 : (⟨S16777216, .i32⟩ : BufTy).Contents (Elt F)) :
    ReadP.val_main_v7 (F := F) x0 x1 = picked (ReadP.val_main_v5 (F := F) x0) (wrapped (ReadP.val_main_v6 (F := F) x1)) := rfl

/-- The staged value of the program's result is `loss` of the staged call result and the two weights. -/
theorem val_v20_eq (x0 : (⟨S16777216x1, .f32⟩ : BufTy).Contents (Elt F)) (x1 : (⟨S16777216, .i32⟩ : BufTy).Contents (Elt F)) (x2 : (⟨S1024x4096, .f32⟩ : BufTy).Contents (Elt F)) (x3 : (⟨S4096x1024, .f32⟩ : BufTy).Contents (Elt F)) :
    ReadP.val_main_v20 (F := F) x0 x1 x2 x3 = loss (ReadP.val_main_v7 (F := F) x0 x1) x2 x3 := rfl

/-- A binary operation over references that carry their tensor type, each carried type the reference's own: it is the
    operation at the buffers directly (the transport of contents along `rfl` is the identity). Stated for any function
    `f`, so that it applies to a reduction or a gather without looking inside it. -/
theorem tbinary_eq {Val : EltTy → Type} (a b y : Ref sig .tc)
    (oa : a.space ≠ .host) (ua : a.isScoped = false) (ob : b.space ≠ .host) (ub : b.isScoped = false)
    (oy : y.space ≠ .host) (uy : y.isScoped = false)
    (f : a.ty.Contents Val → b.ty.Contents Val → y.ty.Contents Val) :
    (TRef.binary (τ := τ) (TRef.of (T := a.ty) a rfl oa ua) (TRef.of (T := b.ty) b rfl ob ub) (TRef.of (T := y.ty) y rfl oy uy) f
        : HloOp τ sig Val)
      = binary a b y f ⟨oa, ua⟩ ⟨ob, ub⟩ ⟨oy, uy⟩ := rfl

/-- The first stretch: the two-column probabilities, clamped below and their logarithm taken (`main_v5`), and the labels as a column (`main_v6`). -/
abbrev s1 : List (HloOp τ sig (Elt F)) :=
  [ nullary main_cst (constant S_ .f32 0x3F800000#32),
    unary main_cst main_v0 (broadcastInDim S16777216x1 ![] bcast_S_S16777216x1 : (⟨S_, .f32⟩ : BufTy).Contents (Elt F) → (⟨S16777216x1, .f32⟩ : BufTy).Contents (Elt F)),
    binary main_v0 main_arg0 main_v1 (subf : (⟨S16777216x1, .f32⟩ : BufTy).Contents (Elt F) → (⟨S16777216x1, .f32⟩ : BufTy).Contents (Elt F) → (⟨S16777216x1, .f32⟩ : BufTy).Contents (Elt F)),
    binary main_v1 main_arg0 main_v2 ((fun a b => concatenate S16777216x2 1 [⟨S16777216x1, a⟩, ⟨S16777216x1, b⟩] concatenates_S16777216x1_S16777216x1_S16777216x2_d1) : (⟨S16777216x1, .f32⟩ : BufTy).Contents (Elt F) → (⟨S16777216x1, .f32⟩ : BufTy).Contents (Elt F) → (⟨S16777216x2, .f32⟩ : BufTy).Contents (Elt F)),
    nullary main_cst_0 (constant S_ .f32 0x322BCC77#32),
    unary main_cst_0 main_v3 (broadcastInDim S16777216x2 ![] bcast_S_S16777216x2 : (⟨S_, .f32⟩ : BufTy).Contents (Elt F) → (⟨S16777216x2, .f32⟩ : BufTy).Contents (Elt F)),
    binary main_v2 main_v3 main_v4 (maximumf : (⟨S16777216x2, .f32⟩ : BufTy).Contents (Elt F) → (⟨S16777216x2, .f32⟩ : BufTy).Contents (Elt F) → (⟨S16777216x2, .f32⟩ : BufTy).Contents (Elt F)),
    unary main_v4 main_v5 (Host.log : (⟨S16777216x2, .f32⟩ : BufTy).Contents (Elt F) → (⟨S16777216x2, .f32⟩ : BufTy).Contents (Elt F)),
    unary main_arg1 main_v6 (broadcastInDim S16777216x1 ![0] bcast_S16777216_S16777216x1_0 : (⟨S16777216, .i32⟩ : BufTy).Contents (Elt F) → (⟨S16777216x1, .i32⟩ : BufTy).Contents (Elt F)) ]

/-- The inlined `@take_along_axis`, first part, as the program spells it (over references that carry their tensor type): the labels wrapped into range and reshaped to the index tensor (`main_call0_v5`). -/
abbrev t2a : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S16777216x1, .i32⟩) main_call0_v0) (broadcastInDim S16777216x1 ![] bcast_S_S16777216x1),
    TRef.binary (TRef.of (T := ⟨S16777216x1, .i32⟩) main_v6) (TRef.of (T := ⟨S16777216x1, .i32⟩) main_call0_v0) (TRef.of (T := ⟨S16777216x1, .i1⟩) main_call0_v1) (cmpi .slt),
    TRef.nullary (TRef.of (T := ⟨S_, .i32⟩) main_call0_c_0) (constantI S_ 32 2#32),
    TRef.unary (TRef.of (T := ⟨S_, .i32⟩) main_call0_c_0) (TRef.of (T := ⟨S16777216x1, .i32⟩) main_call0_v2) (broadcastInDim S16777216x1 ![] bcast_S_S16777216x1),
    TRef.binary (TRef.of (T := ⟨S16777216x1, .i32⟩) main_v6) (TRef.of (T := ⟨S16777216x1, .i32⟩) main_call0_v2) (TRef.of (T := ⟨S16777216x1, .i32⟩) main_call0_v3) addi,
    TRef.ternary (TRef.of (T := ⟨S16777216x1, .i1⟩) main_call0_v1) (TRef.of (T := ⟨S16777216x1, .i32⟩) main_call0_v3) (TRef.of (T := ⟨S16777216x1, .i32⟩) main_v6) (TRef.of (T := ⟨S16777216x1, .i32⟩) main_call0_v4) select,
    TRef.reshape (TRef.of (T := ⟨S16777216x1, .i32⟩) main_call0_v4) (TRef.of (T := ⟨S16777216x1x1, .i32⟩) main_call0_v5) rfl shapeCasts_S16777216x1_S16777216x1x1 ]

/-- The call, second part, as the program spells it: the mask of the indices inside `0 ≤ j ≤ 1` (`main_call0_v11`). -/
abbrev t2b : List (HloOp τ sig (Elt F)) :=
  [ TRef.nullary (TRef.of (T := ⟨S1, .i32⟩) main_call0_c_1) (constantI S1 32 1#32),
    TRef.nullary (TRef.of (T := ⟨S_, .i32⟩) main_call0_c_2) (constantI S_ 32 0#32),
    TRef.unary (TRef.of (T := ⟨S_, .i32⟩) main_call0_c_2) (TRef.of (T := ⟨S16777216x1x1, .i32⟩) main_call0_v6) (broadcastInDim S16777216x1x1 ![] bcast_S_S16777216x1x1),
    TRef.binary (TRef.of (T := ⟨S16777216x1x1, .i32⟩) main_call0_v5) (TRef.of (T := ⟨S16777216x1x1, .i32⟩) main_call0_v6) (TRef.of (T := ⟨S16777216x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S16777216x1x1, .i32⟩) main_call0_v9) (broadcastInDim S16777216x1x1 ![0, 1, 2] bcast_S1x1x1_S16777216x1x1_0_1_2),
    TRef.binary (TRef.of (T := ⟨S16777216x1x1, .i32⟩) main_call0_v5) (TRef.of (T := ⟨S16777216x1x1, .i32⟩) main_call0_v9) (TRef.of (T := ⟨S16777216x1x1, .i1⟩) main_call0_v10) (cmpi .sle),
    TRef.binary (TRef.of (T := ⟨S16777216x1x1, .i1⟩) main_call0_v7) (TRef.of (T := ⟨S16777216x1x1, .i1⟩) main_call0_v10) (TRef.of (T := ⟨S16777216x1x1, .i1⟩) main_call0_v11) andi ]

/-- The call, third part, as the program spells it: the gather, and NaN where the mask fails (`main_v7`). -/
abbrev t2c : List (HloOp τ sig (Elt F)) :=
  [ TRef.nullary (TRef.of (T := ⟨S_, .i1⟩) main_call0_c_3) (constantI S_ 1 1#1),
    TRef.binary (TRef.of (T := ⟨S16777216x1x1, .i1⟩) main_call0_v11) (TRef.of (T := ⟨S_, .i1⟩) main_call0_c_3) (TRef.of (T := ⟨S16777216x1, .i1⟩) main_call0_v12) (fun x v => Host.reduce IntOp.andi x v reducesTo_S16777216x1x1_S16777216x1_d2 h_S_),
    TRef.binary (TRef.of (T := ⟨S16777216x2, .f32⟩) main_v5) (TRef.of (T := ⟨S16777216x1x1, .i32⟩) main_call0_v5) (TRef.of (T := ⟨S16777216x1, .f32⟩) main_call0_v13) (fun x i => Host.gather gather_S16777216x2_S16777216x1x1_S16777216x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S16777216x1, .f32⟩) main_call0_v14) (broadcastInDim S16777216x1 ![] bcast_S_S16777216x1),
    TRef.ternary (TRef.of (T := ⟨S16777216x1, .i1⟩) main_call0_v12) (TRef.of (T := ⟨S16777216x1, .f32⟩) main_call0_v13) (TRef.of (T := ⟨S16777216x1, .f32⟩) main_call0_v14) (TRef.of (T := ⟨S16777216x1, .f32⟩) main_v7) select ]

/-- The last stretch: the mean, the two norms and the result `main_v20`. -/
abbrev s3 : List (HloOp τ sig (Elt F)) :=
  [ reshape main_v7 main_v8 rfl shapeCasts_S16777216x1_S16777216,
    nullary main_cst_1 (constant S_ .f32 0x00000000#32),
    binary main_v8 main_cst_1 main_v9 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_2 (constant S_ .f32 0x4B800000#32),
    binary main_v9 main_cst_2 main_v10 (Host.divf : (⟨S_, .f32⟩ : BufTy).Contents (Elt F) → (⟨S_, .f32⟩ : BufTy).Contents (Elt F) → (⟨S_, .f32⟩ : BufTy).Contents (Elt F)),
    unary main_v10 main_v11 (Host.negf : (⟨S_, .f32⟩ : BufTy).Contents (Elt F) → (⟨S_, .f32⟩ : BufTy).Contents (Elt F)),
    binary main_arg2 main_arg2 main_v12 (mulf : (⟨S1024x4096, .f32⟩ : BufTy).Contents (Elt F) → (⟨S1024x4096, .f32⟩ : BufTy).Contents (Elt F) → (⟨S1024x4096, .f32⟩ : BufTy).Contents (Elt F)),
    nullary main_cst_3 (constant S_ .f32 0x00000000#32),
    binary main_v12 main_cst_3 main_v13 ((fun x v => Host.reduceAdd x v reducesTo_S1024x4096_S_d0_1 h_S_) : (⟨S1024x4096, .f32⟩ : BufTy).Contents (Elt F) → (⟨S_, .f32⟩ : BufTy).Contents (Elt F) → (⟨S_, .f32⟩ : BufTy).Contents (Elt F)),
    unary main_v13 main_v14 (Host.sqrt : (⟨S_, .f32⟩ : BufTy).Contents (Elt F) → (⟨S_, .f32⟩ : BufTy).Contents (Elt F)),
    binary main_arg3 main_arg3 main_v15 (mulf : (⟨S4096x1024, .f32⟩ : BufTy).Contents (Elt F) → (⟨S4096x1024, .f32⟩ : BufTy).Contents (Elt F) → (⟨S4096x1024, .f32⟩ : BufTy).Contents (Elt F)),
    nullary main_cst_4 (constant S_ .f32 0x00000000#32),
    binary main_v15 main_cst_4 main_v16 ((fun x v => Host.reduceAdd x v reducesTo_S4096x1024_S_d0_1 h_S_) : (⟨S4096x1024, .f32⟩ : BufTy).Contents (Elt F) → (⟨S_, .f32⟩ : BufTy).Contents (Elt F) → (⟨S_, .f32⟩ : BufTy).Contents (Elt F)),
    unary main_v16 main_v17 (Host.sqrt : (⟨S_, .f32⟩ : BufTy).Contents (Elt F) → (⟨S_, .f32⟩ : BufTy).Contents (Elt F)),
    binary main_v14 main_v17 main_v18 (addf : (⟨S_, .f32⟩ : BufTy).Contents (Elt F) → (⟨S_, .f32⟩ : BufTy).Contents (Elt F) → (⟨S_, .f32⟩ : BufTy).Contents (Elt F)),
    nullary main_cst_5 (constant S_ .f32 0x3B03126F#32),
    binary main_cst_5 main_v18 main_v19 (mulf : (⟨S_, .f32⟩ : BufTy).Contents (Elt F) → (⟨S_, .f32⟩ : BufTy).Contents (Elt F) → (⟨S_, .f32⟩ : BufTy).Contents (Elt F)),
    binary main_v11 main_v19 main_v20 (addf : (⟨S_, .f32⟩ : BufTy).Contents (Elt F) → (⟨S_, .f32⟩ : BufTy).Contents (Elt F) → (⟨S_, .f32⟩ : BufTy).Contents (Elt F)) ]

/-- The call's first part with each operation written at its buffers directly (a typed reference's transport of contents is along an equation of types that holds by computation, so it is the identity). -/
abbrev s2a : List (HloOp τ sig (Elt F)) :=
  [ nullary main_call0_c ((constantI S_ 32 0#32) : (⟨S_, .i32⟩ : BufTy).Contents (Elt F)),
    unary main_call0_c main_call0_v0 ((broadcastInDim S16777216x1 ![] bcast_S_S16777216x1) : (⟨S_, .i32⟩ : BufTy).Contents (Elt F) → (⟨S16777216x1, .i32⟩ : BufTy).Contents (Elt F)),
    binary main_v6 main_call0_v0 main_call0_v1 ((cmpi .slt) : (⟨S16777216x1, .i32⟩ : BufTy).Contents (Elt F) → (⟨S16777216x1, .i32⟩ : BufTy).Contents (Elt F) → (⟨S16777216x1, .i1⟩ : BufTy).Contents (Elt F)),
    nullary main_call0_c_0 ((constantI S_ 32 2#32) : (⟨S_, .i32⟩ : BufTy).Contents (Elt F)),
    unary main_call0_c_0 main_call0_v2 ((broadcastInDim S16777216x1 ![] bcast_S_S16777216x1) : (⟨S_, .i32⟩ : BufTy).Contents (Elt F) → (⟨S16777216x1, .i32⟩ : BufTy).Contents (Elt F)),
    binary main_v6 main_call0_v2 main_call0_v3 (addi : (⟨S16777216x1, .i32⟩ : BufTy).Contents (Elt F) → (⟨S16777216x1, .i32⟩ : BufTy).Contents (Elt F) → (⟨S16777216x1, .i32⟩ : BufTy).Contents (Elt F)),
    ternary main_call0_v1 main_call0_v3 main_v6 main_call0_v4 (select : (⟨S16777216x1, .i1⟩ : BufTy).Contents (Elt F) → (⟨S16777216x1, .i32⟩ : BufTy).Contents (Elt F) → (⟨S16777216x1, .i32⟩ : BufTy).Contents (Elt F) → (⟨S16777216x1, .i32⟩ : BufTy).Contents (Elt F)),
    reshape main_call0_v4 main_call0_v5 rfl shapeCasts_S16777216x1_S16777216x1x1 ]

/-- The call's second part, likewise. -/
abbrev s2b : List (HloOp τ sig (Elt F)) :=
  [ nullary main_call0_c_1 ((constantI S1 32 1#32) : (⟨S1, .i32⟩ : BufTy).Contents (Elt F)),
    nullary main_call0_c_2 ((constantI S_ 32 0#32) : (⟨S_, .i32⟩ : BufTy).Contents (Elt F)),
    unary main_call0_c_2 main_call0_v6 ((broadcastInDim S16777216x1x1 ![] bcast_S_S16777216x1x1) : (⟨S_, .i32⟩ : BufTy).Contents (Elt F) → (⟨S16777216x1x1, .i32⟩ : BufTy).Contents (Elt F)),
    binary main_call0_v5 main_call0_v6 main_call0_v7 ((cmpi .sge) : (⟨S16777216x1x1, .i32⟩ : BufTy).Contents (Elt F) → (⟨S16777216x1x1, .i32⟩ : BufTy).Contents (Elt F) → (⟨S16777216x1x1, .i1⟩ : BufTy).Contents (Elt F)),
    unary main_call0_c_1 main_call0_v8 ((broadcastInDim S1x1x1 ![2] bcast_S1_S1x1x1_2) : (⟨S1, .i32⟩ : BufTy).Contents (Elt F) → (⟨S1x1x1, .i32⟩ : BufTy).Contents (Elt F)),
    unary main_call0_v8 main_call0_v9 ((broadcastInDim S16777216x1x1 ![0, 1, 2] bcast_S1x1x1_S16777216x1x1_0_1_2) : (⟨S1x1x1, .i32⟩ : BufTy).Contents (Elt F) → (⟨S16777216x1x1, .i32⟩ : BufTy).Contents (Elt F)),
    binary main_call0_v5 main_call0_v9 main_call0_v10 ((cmpi .sle) : (⟨S16777216x1x1, .i32⟩ : BufTy).Contents (Elt F) → (⟨S16777216x1x1, .i32⟩ : BufTy).Contents (Elt F) → (⟨S16777216x1x1, .i1⟩ : BufTy).Contents (Elt F)),
    binary main_call0_v7 main_call0_v10 main_call0_v11 (andi : (⟨S16777216x1x1, .i1⟩ : BufTy).Contents (Elt F) → (⟨S16777216x1x1, .i1⟩ : BufTy).Contents (Elt F) → (⟨S16777216x1x1, .i1⟩ : BufTy).Contents (Elt F)) ]

/-- The call's third part, likewise. -/
abbrev s2c : List (HloOp τ sig (Elt F)) :=
  [ nullary main_call0_c_3 ((constantI S_ 1 1#1) : (⟨S_, .i1⟩ : BufTy).Contents (Elt F)),
    binary main_call0_v11 main_call0_c_3 main_call0_v12 ((fun x v => Host.reduce IntOp.andi x v reducesTo_S16777216x1x1_S16777216x1_d2 h_S_) : (⟨S16777216x1x1, .i1⟩ : BufTy).Contents (Elt F) → (⟨S_, .i1⟩ : BufTy).Contents (Elt F) → (⟨S16777216x1, .i1⟩ : BufTy).Contents (Elt F)),
    binary main_v5 main_call0_v5 main_call0_v13 ((fun x i => Host.gather gather_S16777216x2_S16777216x1x1_S16777216x1_n_1_0_0_1_2_11 x i) : (⟨S16777216x2, .f32⟩ : BufTy).Contents (Elt F) → (⟨S16777216x1x1, .i32⟩ : BufTy).Contents (Elt F) → (⟨S16777216x1, .f32⟩ : BufTy).Contents (Elt F)),
    nullary main_call0_cst ((constant S_ .f32 0x7FC00000#32) : (⟨S_, .f32⟩ : BufTy).Contents (Elt F)),
    unary main_call0_cst main_call0_v14 ((broadcastInDim S16777216x1 ![] bcast_S_S16777216x1) : (⟨S_, .f32⟩ : BufTy).Contents (Elt F) → (⟨S16777216x1, .f32⟩ : BufTy).Contents (Elt F)),
    ternary main_call0_v12 main_call0_v13 main_call0_v14 main_v7 (select : (⟨S16777216x1, .i1⟩ : BufTy).Contents (Elt F) → (⟨S16777216x1, .f32⟩ : BufTy).Contents (Elt F) → (⟨S16777216x1, .f32⟩ : BufTy).Contents (Elt F) → (⟨S16777216x1, .f32⟩ : BufTy).Contents (Elt F)) ]

/-! ## The program is the stretches in a row -/

set_option maxRecDepth 8192 in
/-- The program's operations, cut in five. -/
theorem ops_eq0 : (RunP.ops : List (HloOp τ sig (Elt F))) = s1 ++ t2a ++ t2b ++ t2c ++ s3 := rfl

/-- Operation by operation, the call as the program spells it is the call written at its buffers. -/
theorem t2a_eq : (t2a : List (HloOp τ sig (Elt F))) = s2a :=
  congrArg₂ List.cons rfl (congrArg₂ List.cons rfl (congrArg₂ List.cons rfl (congrArg₂ List.cons rfl (congrArg₂ List.cons rfl (congrArg₂ List.cons rfl (congrArg₂ List.cons rfl (congrArg₂ List.cons rfl (rfl))))))))
theorem t2b_eq : (t2b : List (HloOp τ sig (Elt F))) = s2b :=
  congrArg₂ List.cons rfl (congrArg₂ List.cons rfl (congrArg₂ List.cons rfl (congrArg₂ List.cons rfl (congrArg₂ List.cons rfl (congrArg₂ List.cons rfl (congrArg₂ List.cons rfl (congrArg₂ List.cons rfl (rfl))))))))
theorem t2c_eq : (t2c : List (HloOp τ sig (Elt F))) = s2c :=
  congrArg₂ List.cons rfl (congrArg₂ List.cons (tbinary_eq main_call0_v11 main_call0_c_3 main_call0_v12 _ _ _ _ _ _ _)
    (congrArg₂ List.cons (tbinary_eq main_v5 main_call0_v5 main_call0_v13 _ _ _ _ _ _ _)
      (congrArg₂ List.cons rfl (congrArg₂ List.cons rfl (congrArg₂ List.cons rfl rfl)))))

/-- The program's operations are the five stretches in a row. -/
theorem ops_eq : (RunP.ops : List (HloOp τ sig (Elt F))) = s1 ++ s2a ++ s2b ++ s2c ++ s3 := by
  rw [ops_eq0, t2a_eq, t2b_eq, t2c_eq]

/-! ## Each stretch over any contents `W`: what it leaves in the buffers the later stretches read -/

theorem s1_v5 (W : Valuation τ sig (Elt F)) :
    after s1 W (Proc.devRef .tc main_v5) = ReadP.val_main_v5 (F := F) (W (Proc.devRef .tc main_arg0)) := by
  after_results <;> rfl

theorem s1_v6 (W : Valuation τ sig (Elt F)) :
    after s1 W (Proc.devRef .tc main_v6) = ReadP.val_main_v6 (F := F) (W (Proc.devRef .tc main_arg1)) := by
  after_results <;> rfl

theorem s2a_j (W : Valuation τ sig (Elt F)) :
    after s2a W (Proc.devRef .tc main_call0_v5) = wrapped (W (Proc.devRef .tc main_v6)) := by
  after_results <;> rfl

theorem s2b_ok (W : Valuation τ sig (Elt F)) :
    after s2b W (Proc.devRef .tc main_call0_v11) = inRange (W (Proc.devRef .tc main_call0_v5)) := by
  after_results <;> rfl

theorem s2c_v7 (W : Valuation τ sig (Elt F)) :
    after s2c W (Proc.devRef .tc main_v7) = pickedIf (W (Proc.devRef .tc main_call0_v11)) (W (Proc.devRef .tc main_v5)) (W (Proc.devRef .tc main_call0_v5)) := by
  after_results <;> rfl

theorem s3_v20 (W : Valuation τ sig (Elt F)) :
    after s3 W (Proc.devRef .tc main_v20) = loss (W (Proc.devRef .tc main_v7)) (W (Proc.devRef .tc main_arg2)) (W (Proc.devRef .tc main_arg3)) := by
  after_results <;> rfl

/-! ## What each stretch leaves alone: the buffers it does not write that are read later, and the arguments -/

theorem s1_main_arg0 (W : Valuation τ sig (Elt F)) :
    after s1 W (Proc.devRef .tc main_arg0) = W (Proc.devRef .tc main_arg0) := by
  after_results <;> rfl

theorem s1_main_arg1 (W : Valuation τ sig (Elt F)) :
    after s1 W (Proc.devRef .tc main_arg1) = W (Proc.devRef .tc main_arg1) := by
  after_results <;> rfl

theorem s1_main_arg2 (W : Valuation τ sig (Elt F)) :
    after s1 W (Proc.devRef .tc main_arg2) = W (Proc.devRef .tc main_arg2) := by
  after_results <;> rfl

theorem s1_main_arg3 (W : Valuation τ sig (Elt F)) :
    after s1 W (Proc.devRef .tc main_arg3) = W (Proc.devRef .tc main_arg3) := by
  after_results <;> rfl

theorem s2a_main_v5 (W : Valuation τ sig (Elt F)) :
    after s2a W (Proc.devRef .tc main_v5) = W (Proc.devRef .tc main_v5) := by
  after_results <;> rfl

theorem s2a_main_arg0 (W : Valuation τ sig (Elt F)) :
    after s2a W (Proc.devRef .tc main_arg0) = W (Proc.devRef .tc main_arg0) := by
  after_results <;> rfl

theorem s2a_main_arg1 (W : Valuation τ sig (Elt F)) :
    after s2a W (Proc.devRef .tc main_arg1) = W (Proc.devRef .tc main_arg1) := by
  after_results <;> rfl

theorem s2a_main_arg2 (W : Valuation τ sig (Elt F)) :
    after s2a W (Proc.devRef .tc main_arg2) = W (Proc.devRef .tc main_arg2) := by
  after_results <;> rfl

theorem s2a_main_arg3 (W : Valuation τ sig (Elt F)) :
    after s2a W (Proc.devRef .tc main_arg3) = W (Proc.devRef .tc main_arg3) := by
  after_results <;> rfl

theorem s2b_main_call0_v5 (W : Valuation τ sig (Elt F)) :
    after s2b W (Proc.devRef .tc main_call0_v5) = W (Proc.devRef .tc main_call0_v5) := by
  after_results <;> rfl

theorem s2b_main_v5 (W : Valuation τ sig (Elt F)) :
    after s2b W (Proc.devRef .tc main_v5) = W (Proc.devRef .tc main_v5) := by
  after_results <;> rfl

theorem s2b_main_arg0 (W : Valuation τ sig (Elt F)) :
    after s2b W (Proc.devRef .tc main_arg0) = W (Proc.devRef .tc main_arg0) := by
  after_results <;> rfl

theorem s2b_main_arg1 (W : Valuation τ sig (Elt F)) :
    after s2b W (Proc.devRef .tc main_arg1) = W (Proc.devRef .tc main_arg1) := by
  after_results <;> rfl

theorem s2b_main_arg2 (W : Valuation τ sig (Elt F)) :
    after s2b W (Proc.devRef .tc main_arg2) = W (Proc.devRef .tc main_arg2) := by
  after_results <;> rfl

theorem s2b_main_arg3 (W : Valuation τ sig (Elt F)) :
    after s2b W (Proc.devRef .tc main_arg3) = W (Proc.devRef .tc main_arg3) := by
  after_results <;> rfl

theorem s2c_main_arg0 (W : Valuation τ sig (Elt F)) :
    after s2c W (Proc.devRef .tc main_arg0) = W (Proc.devRef .tc main_arg0) := by
  after_results <;> rfl

theorem s2c_main_arg1 (W : Valuation τ sig (Elt F)) :
    after s2c W (Proc.devRef .tc main_arg1) = W (Proc.devRef .tc main_arg1) := by
  after_results <;> rfl

theorem s2c_main_arg2 (W : Valuation τ sig (Elt F)) :
    after s2c W (Proc.devRef .tc main_arg2) = W (Proc.devRef .tc main_arg2) := by
  after_results <;> rfl

theorem s2c_main_arg3 (W : Valuation τ sig (Elt F)) :
    after s2c W (Proc.devRef .tc main_arg3) = W (Proc.devRef .tc main_arg3) := by
  after_results <;> rfl

theorem s3_main_arg0 (W : Valuation τ sig (Elt F)) :
    after s3 W (Proc.devRef .tc main_arg0) = W (Proc.devRef .tc main_arg0) := by
  after_results <;> rfl

theorem s3_main_arg1 (W : Valuation τ sig (Elt F)) :
    after s3 W (Proc.devRef .tc main_arg1) = W (Proc.devRef .tc main_arg1) := by
  after_results <;> rfl

theorem s3_main_arg2 (W : Valuation τ sig (Elt F)) :
    after s3 W (Proc.devRef .tc main_arg2) = W (Proc.devRef .tc main_arg2) := by
  after_results <;> rfl

theorem s3_main_arg3 (W : Valuation τ sig (Elt F)) :
    after s3 W (Proc.devRef .tc main_arg3) = W (Proc.devRef .tc main_arg3) := by
  after_results <;> rfl

/-! ## The whole program -/

/-- An argument buffer after the whole program holds what it held before. -/
theorem after_arg0 (V : Valuation τ sig (Elt F)) : after RunP.ops V (Proc.devRef .tc main_arg0) = V (Proc.devRef .tc main_arg0) := by
  rw [ops_eq, after_append, after_append, after_append, after_append, s3_main_arg0, s2c_main_arg0, s2b_main_arg0, s2a_main_arg0, s1_main_arg0]
theorem after_arg1 (V : Valuation τ sig (Elt F)) : after RunP.ops V (Proc.devRef .tc main_arg1) = V (Proc.devRef .tc main_arg1) := by
  rw [ops_eq, after_append, after_append, after_append, after_append, s3_main_arg1, s2c_main_arg1, s2b_main_arg1, s2a_main_arg1, s1_main_arg1]
theorem after_arg2 (V : Valuation τ sig (Elt F)) : after RunP.ops V (Proc.devRef .tc main_arg2) = V (Proc.devRef .tc main_arg2) := by
  rw [ops_eq, after_append, after_append, after_append, after_append, s3_main_arg2, s2c_main_arg2, s2b_main_arg2, s2a_main_arg2, s1_main_arg2]
theorem after_arg3 (V : Valuation τ sig (Elt F)) : after RunP.ops V (Proc.devRef .tc main_arg3) = V (Proc.devRef .tc main_arg3) := by
  rw [ops_eq, after_append, after_append, after_append, after_append, s3_main_arg3, s2c_main_arg3, s2b_main_arg3, s2a_main_arg3, s1_main_arg3]

/-- The result buffer after the whole program: the stretches composed last to first, then folded into the staged value. -/
theorem after_v20 (V : Valuation τ sig (Elt F)) :
    after RunP.ops V (Proc.devRef .tc main_v20)
      = ReadP.val_main_v20 (F := F) (V (Proc.devRef .tc main_arg0)) (V (Proc.devRef .tc main_arg1)) (V (Proc.devRef .tc main_arg2)) (V (Proc.devRef .tc main_arg3)) := by
  rw [ops_eq, after_append, after_append, after_append, after_append,
    s3_v20, s2c_v7, s2c_main_arg2, s2c_main_arg3,
    s2b_ok, s2b_main_v5, s2b_main_call0_v5, s2b_main_arg2, s2b_main_arg3,
    s2a_j, s2a_main_v5, s2a_main_arg2, s2a_main_arg3,
    s1_v5, s1_v6, s1_main_arg2, s1_main_arg3, val_v20_eq, val_v7_eq]
  rfl
/-- The reference's run: from any memory with zero counters every weakly fair execution terminates with the result
    buffer at the staged value of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = Cert.ReferenceIdeal.ReadP.val_main_v20 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (after_v20 _),
      (h c main_arg0).trans (after_arg0 _),
      (h c main_arg1).trans (after_arg1 _),
      (h c main_arg2).trans (after_arg2 _),
      (h c main_arg3).trans (after_arg3 _)⟩)
    (run_seq RunP.scopedRefs_eq RunP.scopedSems_eq defs main (fun _ => RunP.ops) RunP.main_eq (fun _ => RunP.ops_sub) m ρ)

end Cert.ReferenceIdeal.RefRun

end
-- ==== Proof.RefValue.lean ====
/-
  The reference's result as one closed expression on the extended reals.

  For probabilities `p : [N, 1]` (`N = 2²⁴`), labels `b : [N]` and weights `W1`, `W2` the reference computes
  `-(Σₙ pickedₙ) / N + λ (√Σ W1² + √Σ W2²)`, where `pickedₙ` is entry `bₙ` of row `n` of `log (max [1 - p, p] ε)`, taken by a
  batched gather along the row: a negative index is first wrapped by the row length 2, the gather clamps its start index into
  `[0, 1]`, and a row whose index lies outside `[0, 1]` is replaced by a fill value. Under the hypothesis that every label is
  0 or 1 none of this acts: the wrapped index is the label, the in-range test holds on every row (so the conjunction over the
  index vector's single component is 1 and the fill is never selected), the clamp is the identity, and the gather reads column
  `bₙ` of row `n` — `log (max (1 - pₙ) ε)` for `bₙ = 0` and `log (max pₙ ε)` for `bₙ = 1`, which is `casePick pₙ bₙ`. Summing
  over the samples, and reading the two weight sums as sums of squares, gives `meanThenNeg`.
-/
import proofs.«401046_j82171314307686_3_alg».proof.Proof.RefReadP
import proofs.«401046_j82171314307686_3_alg».proof.Proof.LossSpec
import Idealize.ShloMosaic.Lib.ValueIdx
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx
open Cert.ReferenceIdeal.ReadP Cert.LossSpec

/-! ## Words: a label in {0, 1} -/

/-- A label that is 0 or 1 is not negative, so adding the axis length 2 to negative labels leaves it alone. -/
theorem wrap_label (b : BitVec 32) (hb : b = 0#32 ∨ b = 1#32) :
    Scalar.select (IntOp.cmpi .slt b 0#32) (IntOp.addi b 2#32) b = b := by
  rcases hb with rfl | rfl <;> decide

/-- A label that is 0 or 1 lies in the range [0, 1] of valid columns. -/
theorem inRange_label (b : BitVec 32) (hb : b = 0#32 ∨ b = 1#32) :
    IntOp.andi (IntOp.cmpi .sge b 0#32) (IntOp.cmpi .sle b 1#32) = 1#1 := by
  rcases hb with rfl | rfl <;> decide

/-- Read as a signed integer and clamped to [0, 1], a label that is 0 or 1 is itself. -/
theorem clamp_label (b : BitVec 32) (hb : b = 0#32 ∨ b = 1#32) :
    min b.toInt.toNat 1 = b.toNat := by
  rcases hb with rfl | rfl <;> decide

/-- A conjunction of bits that are all 1, started from 1, is 1. -/
theorem foldl_andi_one {ι : Type} (f : ι → BitVec 1) :
    ∀ (l : List ι), (∀ i ∈ l, f i = 1#1) → l.foldl (fun r i => IntOp.andi r (f i)) 1#1 = 1#1
  | [], _ => rfl
  | a :: l, h => by
    rw [List.foldl_cons, h a (List.mem_cons_self ..)]
    exact foldl_andi_one f l fun i hi => h i (List.mem_cons_of_mem _ hi)

/-! ## The label after the wrap of negative indices and the reshape to a column of index vectors -/

/-- The wrapped label at a row is the row's label. -/
theorem label_wrap (x1 : (⟨S16777216, .i32⟩ : BufTy).Contents (Elt Ideal))
    (hl : ∀ n : S16777216.Idx, x1 n = 0#32 ∨ x1 n = 1#32) (k : S16777216x1.Idx) :
    val_main_call0_v4 (F := Ideal) x1 k = x1 (idx_main_v6 k) := by
  rw [val_main_call0_v4_apply, val_main_call0_v1_apply, val_main_call0_v3_apply, val_main_v6_apply,
    val_main_call0_v0_apply, val_main_call0_c_apply, val_main_call0_v2_apply, val_main_call0_c_0_apply]
  exact wrap_label _ (hl _)

/-- So is the start index the gather reads. -/
theorem label_idx (x1 : (⟨S16777216, .i32⟩ : BufTy).Contents (Elt Ideal))
    (hl : ∀ n : S16777216.Idx, x1 n = 0#32 ∨ x1 n = 1#32) (i : S16777216x1x1.Idx) :
    val_main_call0_v5 (F := Ideal) x1 i = x1 (idx_main_v6 (idx_main_call0_v5 i)) := by
  rw [val_main_call0_v5_apply, label_wrap x1 hl]

/-! ## The in-bounds mask is all ones -/

/-- Every start index is in [0, 1]. -/
theorem mask_elem (x1 : (⟨S16777216, .i32⟩ : BufTy).Contents (Elt Ideal))
    (hl : ∀ n : S16777216.Idx, x1 n = 0#32 ∨ x1 n = 1#32) (i : S16777216x1x1.Idx) :
    val_main_call0_v11 (F := Ideal) x1 i = 1#1 := by
  rw [val_main_call0_v11_apply, val_main_call0_v7_apply, val_main_call0_v10_apply, label_idx x1 hl,
    val_main_call0_v6_apply, val_main_call0_c_2_apply, val_main_call0_v9_apply, val_main_call0_v8_apply,
    val_main_call0_c_1_apply]
  exact inRange_label _ (hl _)

/-- The conjunction over the index vector's one component is 1 at every row. -/
theorem mask_one (x1 : (⟨S16777216, .i32⟩ : BufTy).Contents (Elt Ideal))
    (hl : ∀ n : S16777216.Idx, x1 n = 0#32 ∨ x1 n = 1#32) (j : S16777216x1.Idx) :
    val_main_call0_v12 (F := Ideal) x1 j = 1#1 := by
  unfold val_main_call0_v12
  rw [Host.reduce_eq_foldl, val_main_call0_c_3_apply]
  exact foldl_andi_one _ _ fun i _ => mask_elem x1 hl i

/-! ## The gather read at a row -/

local notation "gd" => gather_S16777216x2_S16777216x1x1_S16777216x1_n_1_0_0_1_2_11

/-- Row `n` of the batched gather reads row `n` of the operand, at the column the row's start index names, read as a
    signed integer and clamped into [0, 1]: axis 0 is the batching axis, axis 1 the collapsed axis the start index maps to. -/
theorem gather_read {α : Type} {w : Nat} (x : S16777216x2.Idx → α) (idx : IVec S16777216x1x1 w) (n : Fin 16777216) (z : Fin 1) :
    Host.gather gd x idx (ix2 n z) = x (ix2 n ⟨min (idx (ix3 n z 0)).toInt.toNat 1, by omega⟩) := by
  unfold Host.gather
  congr 1
  funext a
  refine Fin.ext ?_
  have hb : (0 : Fin 2) ∈ (gd).operandBatchingDims := List.mem_singleton.mpr rfl
  match a with
  | ⟨0, _⟩ =>
    show (gd).start (ix2 n z) idx 0 + (gd).batchCoord (ix2 n z) 0 + (gd).offCoord (ix2 n z) 0 = n.val
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    have hm : (1 : Fin 2) ∈ (gd).startIndexMap := List.mem_singleton.mpr rfl
    have hc : (1 : Fin 2) ∈ (gd).collapsedSliceDims := List.mem_singleton.mpr rfl
    have hnb : (1 : Fin 2) ∉ (gd).operandBatchingDims := GatherDims.sim_disjoint _ _ hm
    show (gd).start (ix2 n z) idx 1 + (gd).batchCoord (ix2 n z) 1 + (gd).offCoord (ix2 n z) 1
      = min (idx (ix3 n z 0)).toInt.toNat 1
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (gd).siIdx (ix2 n z) ⟨List.idxOf (1 : Fin 2) (gd).startIndexMap, List.idxOf_lt_length_iff.2 hm⟩
        = ix3 n z 0 := by
      funext b; refine Fin.ext ?_
      match b with
      | ⟨0, _⟩ => rfl
      | ⟨1, _⟩ => rfl
      | ⟨2, _⟩ => rfl
    rw [hsi]
    rfl

/-! ## The two columns of the clamped log-probabilities -/

/-- Column 0 of row `n` is `log (max (1 - p) ε)`. -/
theorem logp_col0 (x0 : (⟨S16777216x1, .f32⟩ : BufTy).Contents (Elt Ideal)) (n : Fin 16777216) :
    val_main_v5 (F := Ideal) x0 (ix2 n (0 : Fin 2)) = Ideal.log (max (one32 - x0 (ix2 n (0 : Fin 1))) eps32) := by
  have h2 : val_main_v2 (F := Ideal) x0 (ix2 n (0 : Fin 2)) = val_main_v1 (F := Ideal) x0 (ix2 n (0 : Fin 1)) := by
    unfold val_main_v2
    exact concatenate_pair_apply_left (s₁ := S16777216x1) (s₂ := S16777216x1) 1 _ _ _ (ix2 n (0 : Fin 2)) rfl (ix2 n (0 : Fin 1))
      (fun b => match b with | ⟨0, _⟩ => rfl | ⟨1, _⟩ => rfl)
  rw [val_main_v5_apply, val_main_v4_apply, val_main_v3_apply, val_main_cst_0_apply, h2, val_main_v1_apply,
    val_main_v0_apply, val_main_cst_apply]
  simp only [Ideal.hostUnary_log_def, Ideal.maximumf_def, Ideal.subf_def, Ideal.ofBits_def]

/-- Column 1 of row `n` is `log (max p ε)`. -/
theorem logp_col1 (x0 : (⟨S16777216x1, .f32⟩ : BufTy).Contents (Elt Ideal)) (n : Fin 16777216) :
    val_main_v5 (F := Ideal) x0 (ix2 n (1 : Fin 2)) = Ideal.log (max (x0 (ix2 n (0 : Fin 1))) eps32) := by
  have h2 : val_main_v2 (F := Ideal) x0 (ix2 n (1 : Fin 2)) = x0 (ix2 n (0 : Fin 1)) := by
    unfold val_main_v2
    exact concatenate_pair_apply_right (s₁ := S16777216x1) (s₂ := S16777216x1) 1 _ _ _ (ix2 n (1 : Fin 2)) rfl rfl (ix2 n (0 : Fin 1))
      (fun b hb => match b, hb with | ⟨0, _⟩, _ => rfl | ⟨1, _⟩, hb => absurd rfl hb)
      rfl
  rw [val_main_v5_apply, val_main_v4_apply, val_main_v3_apply, val_main_cst_0_apply, h2]
  simp only [Ideal.hostUnary_log_def, Ideal.maximumf_def, Ideal.ofBits_def]

/-- The gather at row `n` when the clamped start index is the column `c`. -/
theorem gather_col {α : Type} {w : Nat} (x : S16777216x2.Idx → α) (idx : IVec S16777216x1x1 w) (n : Fin 16777216) (z : Fin 1)
    (c : Fin 2) (hc : min (idx (ix3 n z 0)).toInt.toNat 1 = c.val) :
    Host.gather gd x idx (ix2 n z) = x (ix2 n c) := by
  rw [gather_read]
  exact congrArg (fun c => x (ix2 n c)) (Fin.ext hc)

/-! ## One sample -/

/-- The picked log-probability of sample `n`: the mask lets the gather through, the gather reads the column the label
    names, and that column is the case of the label. -/
theorem sample_ix (x0 : (⟨S16777216x1, .f32⟩ : BufTy).Contents (Elt Ideal)) (x1 : (⟨S16777216, .i32⟩ : BufTy).Contents (Elt Ideal))
    (hl : ∀ n : S16777216.Idx, x1 n = 0#32 ∨ x1 n = 1#32) (n : Fin 16777216) :
    val_main_v8 (F := Ideal) x0 x1 (ix1 n) = casePick (x0 (ix2 n (0 : Fin 1))) (x1 (ix1 n)) := by
  have hidx : idx_main_v8 (ix1 n) = ix2 n (0 : Fin 1) := by
    funext a; refine Fin.ext ?_
    match a with
    | ⟨0, _⟩ => exact Nat.div_one _
    | ⟨1, _⟩ => rfl
  have hlab : val_main_call0_v5 (F := Ideal) x1 (ix3 n (0 : Fin 1) (0 : Fin 1)) = x1 (ix1 n) := by
    rw [label_idx x1 hl]
    refine congrArg x1 (funext fun a => Fin.ext ?_)
    match a with
    | ⟨0, _⟩ => show ((n.val * 1 + 0) * 1 + 0) / 1 = n.val; omega
  rw [val_main_v8_apply, hidx, val_main_v7_apply, mask_one x1 hl, select_one]
  unfold val_main_call0_v13
  rcases hl (ix1 n) with h | h
  · rw [gather_col (val_main_v5 (F := Ideal) x0) (val_main_call0_v5 (F := Ideal) x1) n 0 (0 : Fin 2)
      (by rw [hlab, h]; decide), logp_col0, h]
    exact (if_pos rfl).symm
  · rw [gather_col (val_main_v5 (F := Ideal) x0) (val_main_call0_v5 (F := Ideal) x1) n 0 (1 : Fin 2)
      (by rw [hlab, h]; decide), logp_col1, h]
    exact (if_neg (by decide)).symm

theorem sample (x0 : (⟨S16777216x1, .f32⟩ : BufTy).Contents (Elt Ideal)) (x1 : (⟨S16777216, .i32⟩ : BufTy).Contents (Elt Ideal))
    (hl : ∀ n : S16777216.Idx, x1 n = 0#32 ∨ x1 n = 1#32) (n : S16777216.Idx) :
    val_main_v8 (F := Ideal) x0 x1 n = casePick (x0 (ix2 (n 0) 0)) (x1 n) := by
  obtain ⟨m, rfl⟩ : ∃ m : Fin 16777216, n = ix1 m := ⟨n 0, eq_ix1 n⟩
  exact sample_ix x0 x1 hl m

/-! ## The result -/

theorem value (x0 : (⟨S16777216x1, .f32⟩ : BufTy).Contents (Elt Ideal)) (x1 : (⟨S16777216, .i32⟩ : BufTy).Contents (Elt Ideal))
    (x2 : (⟨S1024x4096, .f32⟩ : BufTy).Contents (Elt Ideal)) (x3 : (⟨S4096x1024, .f32⟩ : BufTy).Contents (Elt Ideal))
    (hl : ∀ n : S16777216.Idx, x1 n = 0#32 ∨ x1 n = 1#32) :
    Cert.ReferenceIdeal.ReadP.val_main_v20 (F := Ideal) x0 x1 x2 x3 = fun _ => Cert.LossSpec.meanThenNeg x0 x1 x2 x3 := by
  funext i
  have e1 : ∑ j : S16777216.Idx, val_main_v8 (F := Ideal) x0 x1 j = sampleSum casePick x0 x1 :=
    Finset.sum_congr rfl fun n _ => sample x0 x1 hl n
  have e2 : ∑ j : S1024x4096.Idx, val_main_v12 (F := Ideal) x2 j = sqSum x2 := Finset.sum_congr rfl fun j _ => rfl
  have e3 : ∑ j : S4096x1024.Idx, val_main_v15 (F := Ideal) x3 j = sqSum x3 := Finset.sum_congr rfl fun j _ => rfl
  rw [val_main_v20_apply, val_main_v11_apply, val_main_v10_apply, val_main_v9_apply, val_main_cst_1_apply,
    val_main_cst_2_apply, val_main_v19_apply, val_main_cst_5_apply, val_main_v18_apply, val_main_v14_apply,
    val_main_v13_apply, val_main_cst_3_apply, val_main_v17_apply, val_main_v16_apply, val_main_cst_4_apply,
    e1, e2, e3]
  simp only [Ideal.addf_def, Ideal.mulf_def, Ideal.hostNegf_def, Ideal.negf_def, Ideal.hostDivf_def,
    Ideal.hostUnary_sqrt_def, Ideal.ofBits_def]
  rfl

end Cert.ReferenceIdeal.RefValue

end
-- ==== Proof.LabelRange.lean ====
/-
  The labels are bits.

  The precondition is a conjunction of four statements about the inputs; the last says that every label `b`
  satisfies `0 ≤ b` and `b ≤ 1`, both read as signed 32-bit integers. It is written as one bit per label
  (the "and" of the two comparison bits), all of these bits folded by "and" into a single bit, and that bit
  "and"-ed with the other three statements. The whole expression being 1 therefore forces the folded bit to be 1,
  hence each label's bit to be 1, hence both comparisons to hold at each label. A signed 32-bit integer between
  0 and 1 is 0 or 1, and a 32-bit word is determined by its signed value: every label is the word 0 or the word 1.
-/
import proofs.«401046_j82171314307686_3_alg».proof.Proof.Gen.Pre_finite_inputs
import Idealize.ShloMosaic.PureOps.Ideal
import Idealize.ShloMosaic.Lib.ReduceAll
import Idealize.ShloMosaic.Lib.ValueIdx

namespace Cert.Pre_finite_inputs.LabelRange

open Cert.Pre_finite_inputs Idealize.ShloMosaic

/-- The scalar shape has exactly one index. -/
instance scalarIdx : Subsingleton S_.Idx := ⟨fun a b => funext fun d => d.elim0⟩

/-- A 32-bit word whose signed value lies between those of the words 0 and 1 is one of these two words. -/
theorem word_zero_or_one (b : BitVec 32) (hlo : (0#32 : BitVec 32).toInt ≤ b.toInt)
    (hhi : b.toInt ≤ (1#32 : BitVec 32).toInt) : b = 0#32 ∨ b = 1#32 := by
  have e0 : (0#32 : BitVec 32).toInt = 0 := by decide
  have e1 : (1#32 : BitVec 32).toInt = 1 := by decide
  rw [e0] at hlo
  rw [e1] at hhi
  rcases (by omega : b.toInt = 0 ∨ b.toInt = 1) with hb | hb
  · exact Or.inl (BitVec.eq_of_toInt_eq (hb.trans e0.symm))
  · exact Or.inr (BitVec.eq_of_toInt_eq (hb.trans e1.symm))

/-- Under the precondition every label is 0 or 1. -/
theorem label_range (x0 : FVec Ideal S16777216x1 .f32) (x1 : IVec S16777216 32) (x2 : FVec Ideal S1024x4096 .f32) (x3 : FVec Ideal S4096x1024 .f32)
    (h : Cert.Pre_finite_inputs.fn (F := Ideal) x0 x1 x2 x3 = fun _ => 1#1) :
    ∀ n : S16777216.Idx, x1 n = 0#32 ∨ x1 n = 1#32 := by
  intro n
  -- the value of the precondition at its one index, written out operation by operation
  have h0 := congrFun h ValueIdx.ix0
  dsimp only [fn, fn_part1] at h0
  -- the outer conjunction: keep its last member, the fold over all labels
  have hall := (IntOp.andi_eq_one.1 h0).2
  -- a fold by "and" that is 1 met a 1 at every label
  have hn := Host.reduce_andi_all _ _ _ _ _ hall n
  -- the bit at label n is the "and" of the two comparisons
  obtain ⟨hge, hle⟩ := IntOp.andi_eq_one.1 hn
  exact word_zero_or_one (x1 n) (IntOp.cmpi_sge.1 hge) (IntOp.cmpi_sle.1 hle)

end Cert.Pre_finite_inputs.LabelRange
-- ==== Proof.lean ====
/-
  The loss of a two-class predictor with a norm regulariser, computed two ways, is one number.

  Inputs: probabilities `p` (2²⁴ of them), labels `b`, two weight arrays. For a label in {0, 1} the picked
  log-probability is `log (max (1 - p) ε)` at `b = 0` and `log (max p ε)` at `b = 1`; the loss is
  `-(Σ picked) / 2²⁴ + λ (√Σ W1² + √Σ W2²)`.

  One program picks by indexing the two-column array `log (max [1 - p, p] ε)` with the label, adds all samples in one
  sum, divides, negates, and adds the regulariser computed from one sum per weight array. The other clips the label to
  [0, 1], chooses the branch before the logarithm, adds the samples block by block into running rows on a grid of
  sixteen points, adds the rows on the host, negates, divides; and sums the squares of both weight arrays the same way
  on a grid of four points. Under the precondition every label is 0 or 1, so clipping changes nothing and both picks
  agree; sums on the extended reals may be regrouped and reordered freely; and negating before or after dividing by
  2²⁴ is the same. Hence the two results are equal, element by element (there is one element).

  Both programs terminate without fault and leave their arguments unchanged (the frames); the idealization rewrote no
  operation of the kernel program, so nothing is owed for it.
-/
import proofs.«401046_j82171314307686_3_alg».proof.Defs
import proofs.«401046_j82171314307686_3_alg».proof.Proof.Gen.Kernel
import proofs.«401046_j82171314307686_3_alg».proof.Proof.Gen.Kernel.Skeleton
import proofs.«401046_j82171314307686_3_alg».proof.Proof.Gen.Kernel.Launch
import proofs.«401046_j82171314307686_3_alg».proof.Proof.Gen.Kernel.Points
import proofs.«401046_j82171314307686_3_alg».proof.Proof.Gen.Kernel.Frame
import proofs.«401046_j82171314307686_3_alg».proof.Proof.Gen.KernelIdeal
import proofs.«401046_j82171314307686_3_alg».proof.Proof.Gen.KernelIdeal.Skeleton
import proofs.«401046_j82171314307686_3_alg».proof.Proof.Gen.KernelIdeal.Launch
import proofs.«401046_j82171314307686_3_alg».proof.Proof.Gen.KernelIdeal.Points
import proofs.«401046_j82171314307686_3_alg».proof.Proof.Gen.KernelIdeal.Frame
import proofs.«401046_j82171314307686_3_alg».proof.Proof.Gen.ReferenceIdeal
import proofs.«401046_j82171314307686_3_alg».proof.Proof.Gen.Pre_finite_inputs
import proofs.«401046_j82171314307686_3_alg».proof.Proof.KernelLaunch
import proofs.«401046_j82171314307686_3_alg».proof.Proof.KernelValue
import proofs.«401046_j82171314307686_3_alg».proof.Proof.RefRun
import proofs.«401046_j82171314307686_3_alg».proof.Proof.RefValue
import proofs.«401046_j82171314307686_3_alg».proof.Proof.LabelRange
import Idealize.ShloMosaic.Adequacy
import Idealize.ShloMosaic.Init

noncomputable section

namespace Cert.Proof

open Idealize.ShloMosaic Idealize.SL.Sem Cert.LossSpec

/-- The kernel program, as printed, runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- No operation of the kernel program was rewritten for the reading over the extended reals. -/
theorem preserves : Cert.preserves_Kernel_KernelIdeal := trivial

/-- From memories agreeing on the arguments both programs end at the loss `-(Σ picked / 2²⁴) + λ (√Σ W1² + √Σ W2²)`:
    the kernel program at the same number with the sum negated before the division and the labels clipped, which under
    the precondition's label range is that number; the reference at it by reading its operations one by one. -/
theorem algebraic : Cert.algebraic_KernelIdeal_ReferenceIdeal := by
  intro m ρ m' ρ' hpre hagree
  have hlab : ∀ c : Dev Cert.KernelIdeal.nD, ∀ n, m ((c.tc : Thread Cert.KernelIdeal.nD Cert.KernelIdeal.τ).loc Cert.KernelIdeal.main_arg1) n = 0#32
      ∨ m ((c.tc : Thread Cert.KernelIdeal.nD Cert.KernelIdeal.τ).loc Cert.KernelIdeal.main_arg1) n = 1#32 :=
    fun c => Cert.Pre_finite_inputs.LabelRange.label_range _ _ _ _ (hpre c)
  refine ⟨fun c _ => meanThenNeg (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Launched.run_result (F := Ideal) m ρ)
    refine (Cert.KernelIdeal.KernelValue.result m ρ c).trans (funext fun _ => ?_)
    exact negThenMean_eq_meanThenNeg _ _ _ _ (hlab c)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2]
    exact Cert.ReferenceIdeal.RefValue.value _ _ _ _ (hlab c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
